-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32000 : Shape := ⟨3, ![16, 512, 32000]⟩
abbrev S16x512 : Shape := ⟨2, ![16, 512]⟩
abbrev S16 : Shape := ⟨1, ![16]⟩
abbrev S_ : Shape := ⟨0, ![]⟩

class Facts : Prop where
  bcast_S_S16x512x32000 : S_.BroadcastsInDim S16x512x32000 (![] : Fin 0 → Fin S16x512x32000.rank)
  reducesTo_S16x512x32000_S_d0_1_2 : S16x512x32000.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16x512x32000 .f32) (main_arg1 : IVec S16x512 32) (main_arg2 : IVec S16x512 32) (main_arg3 : IVec S16 32) (main_arg4 : IVec S16 32) : IVec S_ 1 :=
  let main_v0 : FVec F S16x512x32000 .f32 := Host.absf main_arg0
  let main_cst : FVec F S_ .f32 := constant S_ .f32 0x7F800000#32
  let main_v1 : FVec F S16x512x32000 .f32 := broadcastInDim S16x512x32000 ![] bcast_S_S16x512x32000 main_cst
  let main_v2 : IVec S16x512x32000 1 := cmpf .olt main_v0 main_v1
  let main_c : IVec S_ 1 := constantI S_ 1 1#1
  let main_v3 : IVec S_ 1 := (fun x v => Host.reduce IntOp.andi x v reducesTo_S16x512x32000_S_d0_1_2 h_S_) main_v2 main_c
  let main_c_0 : IVec S_ 32 := constantI S_ 32 0#32
  let main_v4 : IVec S16x512 32 := broadcastInDim S16x512 ![] bcast_S_S16x512 main_c_0
  let main_v5 : IVec S16x512 1 := cmpi .sge main_arg2 main_v4
  let main_c_1 : IVec S_ 32 := constantI S_ 32 32000#32
  let main_v6 : IVec S16x512 32 := broadcastInDim S16x512 ![] bcast_S_S16x512 main_c_1
  let main_v7 : IVec S16x512 1 := cmpi .slt main_arg2 main_v6
  let main_v8 : IVec S16x512 1 := andi main_v5 main_v7
  let main_c_2 : IVec S_ 1 := constantI S_ 1 1#1
  let main_v9 : IVec S_ 1 := (fun x v => Host.reduce IntOp.andi x v reducesTo_S16x512_S_d0_1 h_S_) main_v8 main_c_2
  let main_v10 : IVec S_ 1 := andi main_v3 main_v9
  main_v10
-- ==== Kernel.lean ====
abbrev S16x512x32000 : Shape := ⟨3, ![16, 512, 32000]⟩
abbrev S16x512 : Shape := ⟨2, ![16, 512]⟩
abbrev S16 : Shape := ⟨1, ![16]⟩
abbrev S_ : Shape := ⟨0, ![]⟩
abbrev S16x1 : Shape := ⟨2, ![16, 1]⟩
abbrev S16x511 : Shape := ⟨2, ![16, 511]⟩
abbrev S8192x32000 : Shape := ⟨2, ![8192, 32000]⟩
abbrev S8192x1 : Shape := ⟨2, ![8192, 1]⟩
abbrev S64x32000 : Shape := ⟨2, ![64, 32000]⟩
abbrev S64x1 : Shape := ⟨2, ![64, 1]⟩
abbrev S64 : Shape := ⟨1, ![64]⟩
abbrev S16x1x1 : Shape := ⟨3, ![16, 1, 1]⟩
abbrev S1 : Shape := ⟨1, ![1]⟩
abbrev S1x1x1 : Shape := ⟨3, ![1, 1, 1]⟩

abbrev nBuf : Space → Nat
  | .hbm => 86
  | .vmem => 8
  | .smem => 0
  | _ => 0

abbrev bufTy : (tb : Table) → Fin (tcTables nBuf tb) → BufTy
  | .hbm, ⟨0, _⟩ => ⟨S16x512x32000, .f32⟩
  | .hbm, ⟨1, _⟩ => ⟨S16x512, .i32⟩
  | .hbm, ⟨2, _⟩ => ⟨S16x512, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16x512, .i32⟩
  | .hbm, ⟨7, _⟩ => ⟨S16x512, .i1⟩
  | .hbm, ⟨8, _⟩ => ⟨S16x512, .i32⟩
  | .hbm, ⟨9, _⟩ => ⟨S_, .i32⟩
  | .hbm, ⟨10, _⟩ => ⟨S_, .i32⟩
  | .hbm, ⟨11, _⟩ => ⟨S16x512, .i32⟩
  | .hbm, ⟨12, _⟩ => ⟨S_, .i32⟩
  | .hbm, ⟨13, _⟩ => ⟨S16x512, .i32⟩
  | .hbm, ⟨14, _⟩ => ⟨S16x512, .i1⟩
  | .hbm, ⟨15, _⟩ => ⟨S_, .i32⟩
  | .hbm, ⟨16, _⟩ => ⟨S16x512, .i32⟩
  | .hbm, ⟨17, _⟩ => ⟨S16x512, .i1⟩
  | .hbm, ⟨18, _⟩ => ⟨S16x512, .i1⟩
  | .hbm, ⟨19, _⟩ => ⟨S16x1, .i32⟩
  | .hbm, ⟨20, _⟩ => ⟨S16x511, .i32⟩
  | .hbm, ⟨21, _⟩ => ⟨S16x512, .i32⟩
  | .hbm, ⟨22, _⟩ => ⟨S8192x32000, .f32⟩
  | .hbm, ⟨23, _⟩ => ⟨S8192x1, .i32⟩
  | .hbm, ⟨24, _⟩ => ⟨S8192x1, .f32⟩
  | .hbm, ⟨25, _⟩ => ⟨S8192x1, .f32⟩
  | .hbm, ⟨26, _⟩ => ⟨S16x512, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S16x512, .f32⟩
  | .hbm, ⟨31, _⟩ => ⟨S_, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S16x512, .f32⟩
  | .hbm, ⟨36, _⟩ => ⟨S16x512, .f32⟩
  | .hbm, ⟨37, _⟩ => ⟨S_, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S16, .f32⟩
  | .hbm, ⟨43, _⟩ => ⟨S_, .i32⟩
  | .hbm, ⟨44, _⟩ => ⟨S16, .i32⟩
  | .hbm, ⟨45, _⟩ => ⟨S16, .i32⟩
  | .hbm, ⟨46, _⟩ => ⟨S16x1, .i32⟩
  | .hbm, ⟨47, _⟩ => ⟨S_, .i32⟩
  | .hbm, ⟨48, _⟩ => ⟨S16x1, .i32⟩
  | .hbm, ⟨49, _⟩ => ⟨S16x1, .i1⟩
  | .hbm, ⟨50, _⟩ => ⟨S_, .i32⟩
  | .hbm, ⟨51, _⟩ => ⟨S16x1, .i32⟩
  | .hbm, ⟨52, _⟩ => ⟨S16x1, .i32⟩
  | .hbm, ⟨53, _⟩ => ⟨S16x1, .i32⟩
  | .hbm, ⟨54, _⟩ => ⟨S16x1x1, .i32⟩
  | .hbm, ⟨55, _⟩ => ⟨S1, .i32⟩
  | .hbm, ⟨56, _⟩ => ⟨S_, .i32⟩
  | .hbm, ⟨57, _⟩ => ⟨S16x1x1, .i32⟩
  | .hbm, ⟨58, _⟩ => ⟨S16x1x1, .i1⟩
  | .hbm, ⟨59, _⟩ => ⟨S1x1x1, .i32⟩
  | .hbm, ⟨60, _⟩ => ⟨S16x1x1, .i32⟩
  | .hbm, ⟨61, _⟩ => ⟨S16x1x1, .i1⟩
  | .hbm, ⟨62, _⟩ => ⟨S16x1x1, .i1⟩
  | .hbm, ⟨63, _⟩ => ⟨S_, .i1⟩
  | .hbm, ⟨64, _⟩ => ⟨S16x1, .i1⟩
  | .hbm, ⟨65, _⟩ => ⟨S16x1, .f32⟩
  | .hbm, ⟨66, _⟩ => ⟨S_, .f32⟩
  | .hbm, ⟨67, _⟩ => ⟨S16x1, .f32⟩
  | .hbm, ⟨68, _⟩ => ⟨S16x1, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .i1⟩
  | .hbm, ⟨73, _⟩ => ⟨S16, .f32⟩
  | .hbm, ⟨74, _⟩ => ⟨S16, .f32⟩
  | .hbm, ⟨75, _⟩ => ⟨S16, .f32⟩
  | .hbm, ⟨76, _⟩ => ⟨S16, .i1⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x1, .i32⟩
  | .local _ .vmem, ⟨3, _⟩ => ⟨S64x1, .i32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | _, _ => ⟨S16x512x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_c : Ref sig .tc := ⟨.hbm, 9, rfl⟩
abbrev main_call0_call0_v0 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_cst_2 : Ref sig .tc := ⟨.hbm, 33, rfl⟩
abbrev main_call2_v0 : Ref sig .tc := ⟨.hbm, 34, rfl⟩
abbrev main_call2_v1 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_cst : Ref sig .tc := ⟨.hbm, 66, rfl⟩
abbrev main_call3_v14 : Ref sig .tc := ⟨.hbm, 67, rfl⟩
abbrev main_v27 : Ref sig .tc := ⟨.hbm, 68, rfl⟩
abbrev main_v28 : Ref sig .tc := ⟨.hbm, 69, rfl⟩
abbrev main_cst_6 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_7 : Ref sig .tc := ⟨.hbm, 79, rfl⟩
abbrev main_v37 : Ref sig .tc := ⟨.hbm, 80, rfl⟩
abbrev main_cst_8 : Ref sig .tc := ⟨.hbm, 81, rfl⟩
abbrev main_v38 : Ref sig .tc := ⟨.hbm, 82, rfl⟩
abbrev main_cst_9 : Ref sig .tc := ⟨.hbm, 83, rfl⟩
abbrev main_v39 : Ref sig .tc := ⟨.hbm, 84, rfl⟩
abbrev main_v40 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16x512 : S_.BroadcastsInDim S16x512 (![] : Fin 0 → Fin S16x512.rank)
  natLt_1_32 : 1 < 32
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  slices_S16x512_S16x1_0_511 : S16x512.Slices ![0, 511] S16x1
  slices_S16x512_S16x511_0_0 : S16x512.Slices ![0, 0] S16x511
  concatenates_S16x1_S16x511_S16x512_d1 : Shape.Concatenates [S16x1, S16x511] S16x512 1
  shapeCasts_S16x512x32000_S8192x32000 : S16x512x32000.ShapeCasts S8192x32000
  shapeCasts_S16x512_S8192x1 : S16x512.ShapeCasts S8192x1
  iota_S64x32000_d1_w32 : S64x32000.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32000 : S64x1.Broadcasts S64x32000
  inb_S64x32000_S64x32000_0_0 : ∀ a, (![0, 0] : Fin 2 → Nat) a + S64x32000.size a ≤ S64x32000.size a
  h_S64x32000 : 0 < S64x32000.numel
  shapeCasts_S64x32000_S64x32000 : S64x32000.ShapeCasts S64x32000
  reduces_S64x32000_S64 : S64x32000.Reduces [1] S64
  shapeCasts_S64_S64x1 : S64.ShapeCasts S64x1
  inb_S64x32000_S64x1_0_2 : ∀ a, (![0, 2] : Fin 2 → Nat) a + S64x1.size a ≤ S64x32000.size a
  shapeCasts_S8192x1_S16x512 : S8192x1.ShapeCasts S16x512
  reducesTo_S16x512_S16_d1 : S16x512.ReducesTo [1] S16
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  shapeCasts_S16x1_S16x1x1 : S16x1.ShapeCasts S16x1x1
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  shapeCasts_S16x1_S16 : S16x1.ShapeCasts S16
  reducesTo_S16_S_d0 : S16.ReducesTo [0] S_
  gather_S16x512_S16x1x1_S16x1_n_1_0_0_1_2_11_wf : GatherDims.WF S16x512 S16x1x1 S16x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S8192x32000.size a
  hwx0_0 : ∀ i : grid0.Coords, EltTy.bits .f32 = 32 ∨ (Rect.block (s := S8192x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S8192x1.size a
  hwx0_1 : ∀ i : grid0.Coords, EltTy.bits .i32 = 32 ∨ (Rect.block (s := S8192x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S8192x1.size a
  hwx0_2 : ∀ i : grid0.Coords, EltTy.bits .f32 = 32 ∨ (Rect.block (s := S8192x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S8192x1.size a
  hwx0_3 : ∀ i : grid0.Coords, EltTy.bits .f32 = 32 ∨ (Rect.block (s := S8192x1) S64x1.size (cc0_transform_3 i) (hinb0_3 i)).WholeWords (EltTy.packing .f32)

variable [Facts₀]

def gather_S16x512_S16x1x1_S16x1_n_1_0_0_1_2_11 : GatherDims S16x512 S16x1x1 S16x1 where
  offsetDims := []
  collapsedSliceDims := [1]
  operandBatchingDims := [0]
  startIndicesBatchingDims := [0]
  startIndexMap := [1]
  indexVectorDim := 2
  sliceSizes := ![1, 1]
  wf := gather_S16x512_S16x1x1_S16x1_n_1_0_0_1_2_11_wf

abbrev win0_0 : Pipeline.Window sig grid0 :=
  Pipeline.Window.ofSpec (Memref.whole main_v10) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12_0) S64x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_1) S64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x32000 : Shape := ⟨3, ![16, 512, 32000]⟩
abbrev S16x512 : Shape := ⟨2, ![16, 512]⟩
abbrev S16 : Shape := ⟨1, ![16]⟩
abbrev S_ : Shape := ⟨0, ![]⟩
abbrev S16x1 : Shape := ⟨2, ![16, 1]⟩
abbrev S16x511 : Shape := ⟨2, ![16, 511]⟩
abbrev S16x512x1 : Shape := ⟨3, ![16, 512, 1]⟩
abbrev S16x512x1x1 : Shape := ⟨4, ![16, 512, 1, 1]⟩
abbrev S1 : Shape := ⟨1, ![1]⟩
abbrev S1x1x1x1 : Shape := ⟨4, ![1, 1, 1, 1]⟩
abbrev S16x1x1 : Shape := ⟨3, ![16, 1, 1]⟩
abbrev S1x1x1 : Shape := ⟨3, ![1, 1, 1]⟩

abbrev nBuf : Space → Nat
  | .hbm => 106
  | .vmem => 0
  | .smem => 0
  | _ => 0

abbrev bufTy : (tb : Table) → Fin (tcTables nBuf tb) → BufTy
  | .hbm, ⟨0, _⟩ => ⟨S16x512x32000, .f32⟩
  | .hbm, ⟨1, _⟩ => ⟨S16x512, .i32⟩
  | .hbm, ⟨2, _⟩ => ⟨S16x512, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16x512, .i32⟩
  | .hbm, ⟨7, _⟩ => ⟨S16x512, .i1⟩
  | .hbm, ⟨8, _⟩ => ⟨S16x512, .i32⟩
  | .hbm, ⟨9, _⟩ => ⟨S_, .i32⟩
  | .hbm, ⟨10, _⟩ => ⟨S_, .i32⟩
  | .hbm, ⟨11, _⟩ => ⟨S16x512, .i32⟩
  | .hbm, ⟨12, _⟩ => ⟨S_, .i32⟩
  | .hbm, ⟨13, _⟩ => ⟨S16x512, .i32⟩
  | .hbm, ⟨14, _⟩ => ⟨S16x512, .i1⟩
  | .hbm, ⟨15, _⟩ => ⟨S_, .i32⟩
  | .hbm, ⟨16, _⟩ => ⟨S16x512, .i32⟩
  | .hbm, ⟨17, _⟩ => ⟨S16x512, .i1⟩
  | .hbm, ⟨18, _⟩ => ⟨S16x512, .i1⟩
  | .hbm, ⟨19, _⟩ => ⟨S16x1, .i32⟩
  | .hbm, ⟨20, _⟩ => ⟨S16x511, .i32⟩
  | .hbm, ⟨21, _⟩ => ⟨S16x512, .i32⟩
  | .hbm, ⟨22, _⟩ => ⟨S16x512x1, .i32⟩
  | .hbm, ⟨23, _⟩ => ⟨S_, .i32⟩
  | .hbm, ⟨24, _⟩ => ⟨S16x512x1, .i32⟩
  | .hbm, ⟨25, _⟩ => ⟨S16x512x1, .i1⟩
  | .hbm, ⟨26, _⟩ => ⟨S_, .i32⟩
  | .hbm, ⟨27, _⟩ => ⟨S16x512x1, .i32⟩
  | .hbm, ⟨28, _⟩ => ⟨S16x512x1, .i32⟩
  | .hbm, ⟨29, _⟩ => ⟨S16x512x1, .i32⟩
  | .hbm, ⟨30, _⟩ => ⟨S16x512x1x1, .i32⟩
  | .hbm, ⟨31, _⟩ => ⟨S1, .i32⟩
  | .hbm, ⟨32, _⟩ => ⟨S_, .i32⟩
  | .hbm, ⟨33, _⟩ => ⟨S16x512x1x1, .i32⟩
  | .hbm, ⟨34, _⟩ => ⟨S16x512x1x1, .i1⟩
  | .hbm, ⟨35, _⟩ => ⟨S1x1x1x1, .i32⟩
  | .hbm, ⟨36, _⟩ => ⟨S16x512x1x1, .i32⟩
  | .hbm, ⟨37, _⟩ => ⟨S16x512x1x1, .i1⟩
  | .hbm, ⟨38, _⟩ => ⟨S16x512x1x1, .i1⟩
  | .hbm, ⟨39, _⟩ => ⟨S_, .i1⟩
  | .hbm, ⟨40, _⟩ => ⟨S16x512x1, .i1⟩
  | .hbm, ⟨41, _⟩ => ⟨S16x512x1, .f32⟩
  | .hbm, ⟨42, _⟩ => ⟨S_, .f32⟩
  | .hbm, ⟨43, _⟩ => ⟨S16x512x1, .f32⟩
  | .hbm, ⟨44, _⟩ => ⟨S16x512x1, .f32⟩
  | .hbm, ⟨45, _⟩ => ⟨S16x512, .f32⟩
  | .hbm, ⟨46, _⟩ => ⟨S16x512, .f32⟩
  | .hbm, ⟨47, _⟩ => ⟨S16x512, .f32⟩
  | .hbm, ⟨48, _⟩ => ⟨S16x512, .f32⟩
  | .hbm, ⟨49, _⟩ => ⟨S_, .f32⟩
  | .hbm, ⟨50, _⟩ => ⟨S16, .f32⟩
  | .hbm, ⟨51, _⟩ => ⟨S_, .f32⟩
  | .hbm, ⟨52, _⟩ => ⟨S_, .f32⟩
  | .hbm, ⟨53, _⟩ => ⟨S16x512, .f32⟩
  | .hbm, ⟨54, _⟩ => ⟨S16x512, .f32⟩
  | .hbm, ⟨55, _⟩ => ⟨S_, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S16x512x1, .f32⟩
  | .hbm, ⟨62, _⟩ => ⟨S16x512, .f32⟩
  | .hbm, ⟨63, _⟩ => ⟨S_, .i32⟩
  | .hbm, ⟨64, _⟩ => ⟨S16, .i32⟩
  | .hbm, ⟨65, _⟩ => ⟨S16, .i32⟩
  | .hbm, ⟨66, _⟩ => ⟨S16x1, .i32⟩
  | .hbm, ⟨67, _⟩ => ⟨S_, .i32⟩
  | .hbm, ⟨68, _⟩ => ⟨S16x1, .i32⟩
  | .hbm, ⟨69, _⟩ => ⟨S16x1, .i1⟩
  | .hbm, ⟨70, _⟩ => ⟨S_, .i32⟩
  | .hbm, ⟨71, _⟩ => ⟨S16x1, .i32⟩
  | .hbm, ⟨72, _⟩ => ⟨S16x1, .i32⟩
  | .hbm, ⟨73, _⟩ => ⟨S16x1, .i32⟩
  | .hbm, ⟨74, _⟩ => ⟨S16x1x1, .i32⟩
  | .hbm, ⟨75, _⟩ => ⟨S1, .i32⟩
  | .hbm, ⟨76, _⟩ => ⟨S_, .i32⟩
  | .hbm, ⟨77, _⟩ => ⟨S16x1x1, .i32⟩
  | .hbm, ⟨78, _⟩ => ⟨S16x1x1, .i1⟩
  | .hbm, ⟨79, _⟩ => ⟨S1x1x1, .i32⟩
  | .hbm, ⟨80, _⟩ => ⟨S16x1x1, .i32⟩
  | .hbm, ⟨81, _⟩ => ⟨S16x1x1, .i1⟩
  | .hbm, ⟨82, _⟩ => ⟨S16x1x1, .i1⟩
  | .hbm, ⟨83, _⟩ => ⟨S_, .i1⟩
  | .hbm, ⟨84, _⟩ => ⟨S16x1, .i1⟩
  | .hbm, ⟨85, _⟩ => ⟨S16x1, .f32⟩
  | .hbm, ⟨86, _⟩ => ⟨S_, .f32⟩
  | .hbm, ⟨87, _⟩ => ⟨S16x1, .f32⟩
  | .hbm, ⟨88, _⟩ => ⟨S16x1, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S16, .i1⟩
  | .hbm, ⟨93, _⟩ => ⟨S16, .f32⟩
  | .hbm, ⟨94, _⟩ => ⟨S16, .f32⟩
  | .hbm, ⟨95, _⟩ => ⟨S16, .f32⟩
  | .hbm, ⟨96, _⟩ => ⟨S16, .i1⟩
  | .hbm, ⟨97, _⟩ => ⟨S16, .f32⟩
  | .hbm, ⟨98, _⟩ => ⟨S16, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S16x512x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_c : Ref sig .tc := ⟨.hbm, 9, rfl⟩
abbrev main_call0_call0_v0 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_v10 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_cst : Ref sig .tc := ⟨.hbm, 42, rfl⟩
abbrev main_call2_v14 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst : Ref sig .tc := ⟨.hbm, 49, rfl⟩
abbrev main_v16 : Ref sig .tc := ⟨.hbm, 50, rfl⟩
abbrev main_cst_2 : Ref sig .tc := ⟨.hbm, 51, rfl⟩
abbrev main_call3_v0 : Ref sig .tc := ⟨.hbm, 52, rfl⟩
abbrev main_call3_v1 : Ref sig .tc := ⟨.hbm, 53, rfl⟩
abbrev main_v17 : Ref sig .tc := ⟨.hbm, 54, rfl⟩
abbrev main_cst_3 : Ref sig .tc := ⟨.hbm, 55, rfl⟩
abbrev main_v18 : Ref sig .tc := ⟨.hbm, 56, rfl⟩
abbrev main_cst_4 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_5 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_call4_c : Ref sig .tc := ⟨.hbm, 67, rfl⟩
abbrev main_call4_v0 : Ref sig .tc := ⟨.hbm, 68, rfl⟩
abbrev main_call4_v1 : Ref sig .tc := ⟨.hbm, 69, rfl⟩
abbrev main_call4_c_0 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_c_1 : Ref sig .tc := ⟨.hbm, 75, rfl⟩
abbrev main_call4_c_2 : Ref sig .tc := ⟨.hbm, 76, rfl⟩
abbrev main_call4_v6 : Ref sig .tc := ⟨.hbm, 77, rfl⟩
abbrev main_call4_v7 : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_c_3 : Ref sig .tc := ⟨.hbm, 83, rfl⟩
abbrev main_call4_v12 : Ref sig .tc := ⟨.hbm, 84, rfl⟩
abbrev main_call4_v13 : Ref sig .tc := ⟨.hbm, 85, rfl⟩
abbrev main_call4_cst : Ref sig .tc := ⟨.hbm, 86, rfl⟩
abbrev main_call4_v14 : Ref sig .tc := ⟨.hbm, 87, rfl⟩
abbrev main_v27 : Ref sig .tc := ⟨.hbm, 88, rfl⟩
abbrev main_v28 : Ref sig .tc := ⟨.hbm, 89, rfl⟩
abbrev main_cst_6 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_cst_7 : Ref sig .tc := ⟨.hbm, 99, rfl⟩
abbrev main_v37 : Ref sig .tc := ⟨.hbm, 100, rfl⟩
abbrev main_cst_8 : Ref sig .tc := ⟨.hbm, 101, rfl⟩
abbrev main_v38 : Ref sig .tc := ⟨.hbm, 102, rfl⟩
abbrev main_cst_9 : Ref sig .tc := ⟨.hbm, 103, rfl⟩
abbrev main_v39 : Ref sig .tc := ⟨.hbm, 104, rfl⟩
abbrev main_v40 : Ref sig .tc := ⟨.hbm, 105, rfl⟩

abbrev nD : Nat := 1
abbrev τ : Topo := Topo.v7x

variable {F : FTy → Type} [FloatOps F]

class Facts₀ : Prop where
  bcast_S_S16x512 : S_.BroadcastsInDim S16x512 (![] : Fin 0 → Fin S16x512.rank)
  natLt_1_32 : 1 < 32
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  slices_S16x512_S16x1_0_511 : S16x512.Slices ![0, 511] S16x1
  slices_S16x512_S16x511_0_0 : S16x512.Slices ![0, 0] S16x511
  concatenates_S16x1_S16x511_S16x512_d1 : Shape.Concatenates [S16x1, S16x511] S16x512 1
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  shapeCasts_S16x512x1_S16x512x1x1 : S16x512x1.ShapeCasts S16x512x1x1
  bcast_S_S16x512x1x1 : S_.BroadcastsInDim S16x512x1x1 (![] : Fin 0 → Fin S16x512x1x1.rank)
  bcast_S1_S1x1x1x1_3 : S1.BroadcastsInDim S1x1x1x1 (![3] : Fin 1 → Fin S1x1x1x1.rank)
  bcast_S1x1x1x1_S16x512x1x1_0_1_2_3 : S1x1x1x1.BroadcastsInDim S16x512x1x1 (![0, 1, 2, 3] : Fin 4 → Fin S16x512x1x1.rank)
  reducesTo_S16x512x1x1_S16x512x1_d3 : S16x512x1x1.ReducesTo [3] S16x512x1
  shapeCasts_S16x512x1_S16x512 : S16x512x1.ShapeCasts S16x512
  reducesTo_S16x512_S16_d1 : S16x512.ReducesTo [1] S16
  bcast_S_S16 : S_.BroadcastsInDim S16 (![] : Fin 0 → Fin S16.rank)
  slices_S16x512x32000_S16x512x1_0_0_2 : S16x512x32000.Slices ![0, 0, 2] S16x512x1
  bcast_S16_S16x1_0 : S16.BroadcastsInDim S16x1 (![0] : Fin 1 → Fin S16x1.rank)
  bcast_S_S16x1 : S_.BroadcastsInDim S16x1 (![] : Fin 0 → Fin S16x1.rank)
  shapeCasts_S16x1_S16x1x1 : S16x1.ShapeCasts S16x1x1
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  shapeCasts_S16x1_S16 : S16x1.ShapeCasts S16
  reducesTo_S16_S_d0 : S16.ReducesTo [0] S_
  gather_S16x512x32000_S16x512x1x1_S16x512x1_n_2_01_01_2_3_111_wf : GatherDims.WF S16x512x32000 S16x512x1x1 S16x512x1 [] [2] [0, 1] [2] [0, 1] 3 ![1, 1, 1]
  gather_S16x512_S16x1x1_S16x1_n_1_0_0_1_2_11_wf : GatherDims.WF S16x512 S16x1x1 S16x1 [] [1] [0] [1] [0] 2 ![1, 1]

variable [Facts₀]

def gather_S16x512x32000_S16x512x1x1_S16x512x1_n_2_01_01_2_3_111 : GatherDims S16x512x32000 S16x512x1x1 S16x512x1 where
  offsetDims := []
  collapsedSliceDims := [2]
  operandBatchingDims := [0, 1]
  startIndicesBatchingDims := [0, 1]
  startIndexMap := [2]
  indexVectorDim := 3
  sliceSizes := ![1, 1, 1]
  wf := gather_S16x512x32000_S16x512x1x1_S16x512x1_n_2_01_01_2_3_111_wf
def gather_S16x512_S16x1x1_S16x1_n_1_0_0_1_2_11 : GatherDims S16x512 S16x1x1 S16x1 where
  offsetDims := []
  collapsedSliceDims := [1]
  operandBatchingDims := [0]
  startIndicesBatchingDims := [0]
  startIndexMap := [1]
  indexVectorDim := 2
  sliceSizes := ![1, 1]
  wf := gather_S16x512_S16x1x1_S16x1_n_1_0_0_1_2_11_wf

class Facts : Prop extends Facts₀ where

variable [Facts]
-- ==== Proof.Chains.lean ====
/-
  The host-side arithmetic both programs share, named once so that no proof ever has to open it.

  From the per-position probabilities p and the fixed-column probabilities fb the two programs compute the loss by
  the SAME chain of operations: nll = -log p; per row, the number of counted positions and the mean nll over them;
  a fallback -log fb[b, seq_len[b] + 2] for a row with nothing counted; the mean over the active rows. The
  positions counted (`unkOf`: those before the first 0 of the row that hold a 1) and the targets shifted by one
  position along each row (`rollOf`) are likewise computed alike. What DIFFERS between the programs is only how p
  and fb are obtained, and that is what the value modules settle: here the chains are just given names
  (`lossOf`, `unkOf`, `rollOf` on the kernel's side of the text; `takeOf`, `fbColOf` for the reference's own
  lookup of p and its cut of the fixed column), operation by operation in the order each program states them.
-/
import proofs.«406111_j31421980738233_3_alg».proof.KernelIdeal
import proofs.«406111_j31421980738233_3_alg».proof.ReferenceIdeal

noncomputable section

namespace Cert.KernelIdeal

open Idealize.ShloMosaic
open Facts₀ Facts

variable {F : FTy → Type} [FloatOps F] [Facts]

/-- The counted positions of each row: before the row's first 0 (the running count of zeros is still 0) and
    holding a 1. -/
def unkOf (a1 : IVec S16x512 32) : IVec S16x512 1 :=
  let c : IVec S_ 32 := constantI S_ 32 0#32
  let v0 : IVec S16x512 32 := broadcastInDim S16x512 ![] bcast_S_S16x512 c
  let v1 : IVec S16x512 1 := cmpi .eq a1 v0
  let v2 : IVec S16x512 32 := extui 32 v1 natLt_1_32
  let cc : IVec S_ 32 := constantI S_ 32 0#32
  let cv0 : IVec S_ 32 := broadcastInDim S_ ![] bcast_S_S_ cc
  let v3 : IVec S16x512 32 := Host.reduceWindow IntOp.addi ![1, 512] ![1, 1] ![0, 511] ![0, 0] v2 cv0 reduceWindows_S16x512_S16x512_w1s1p0_0_w512s1p511_0 h_S_
  let c_0 : IVec S_ 32 := constantI S_ 32 0#32
  let v4 : IVec S16x512 32 := broadcastInDim S16x512 ![] bcast_S_S16x512 c_0
  let v5 : IVec S16x512 1 := cmpi .eq v3 v4
  let c_1 : IVec S_ 32 := constantI S_ 32 1#32
  let v6 : IVec S16x512 32 := broadcastInDim S16x512 ![] bcast_S_S16x512 c_1
  let v7 : IVec S16x512 1 := cmpi .eq a1 v6
  andi v5 v7

/-- Each row shifted by one position, cyclically: the last entry first, then the first 511. -/
def rollOf (a2 : IVec S16x512 32) : IVec S16x512 32 :=
  concatenate S16x512 1 [⟨S16x1, extractStridedSlice S16x1 ![0, 511] a2 slices_S16x512_S16x1_0_511⟩,
    ⟨S16x511, extractStridedSlice S16x511 ![0, 0] a2 slices_S16x512_S16x511_0_0⟩] concatenates_S16x1_S16x511_S16x512_d1

/-- The loss from the probabilities `p`, the fixed-column probabilities `fb`, the counted positions, the sequence
    lengths and the inserted counts. -/
def lossOf (p fb : FVec F S16x512 .f32) (unk : IVec S16x512 1) (a3 a4 : IVec S16 32) : FVec F S_ .f32 :=
  let v15 : FVec F S16x512 .f32 := Host.log p
  let v16 : FVec F S16x512 .f32 := Host.negf v15
  let v17 : FVec F S16x512 .f32 := uitofp .f32 unk
  let cst : FVec F S_ .f32 := constant S_ .f32 0x00000000#32
  let v18 : FVec F S16 .f32 := Host.reduceAdd v17 cst reducesTo_S16x512_S16_d1 h_S_
  let cst_2 : FVec F S_ .f32 := constant S_ .f32 0x00000000#32
  let w0 : FVec F S_ .f32 := id cst_2
  let w1 : FVec F S16x512 .f32 := broadcastInDim S16x512 ![] bcast_S_S16x512 w0
  let v19 : FVec F S16x512 .f32 := select unk v16 w1
  let cst_3 : FVec F S_ .f32 := constant S_ .f32 0x00000000#32
  let v20 : FVec F S16 .f32 := Host.reduceAdd v19 cst_3 reducesTo_S16x512_S16_d1 h_S_
  let cst_4 : FVec F S_ .f32 := constant S_ .f32 0x3F800000#32
  let v21 : FVec F S16 .f32 := broadcastInDim S16 ![] bcast_S_S16 cst_4
  let v22 : FVec F S16 .f32 := maximumf v18 v21
  let v23 : FVec F S16 .f32 := Host.divf v20 v22
  let c_5 : IVec S_ 32 := constantI S_ 32 2#32
  let v24 : IVec S16 32 := broadcastInDim S16 ![] bcast_S_S16 c_5
  let v25 : IVec S16 32 := addi a3 v24
  let v26 : IVec S16x1 32 := broadcastInDim S16x1 ![0] bcast_S16_S16x1_0 v25
  let tc : IVec S_ 32 := constantI S_ 32 0#32
  let t0 : IVec S16x1 32 := broadcastInDim S16x1 ![] bcast_S_S16x1 tc
  let t1 : IVec S16x1 1 := cmpi .slt v26 t0
  let tc_0 : IVec S_ 32 := constantI S_ 32 512#32
  let t2 : IVec S16x1 32 := broadcastInDim S16x1 ![] bcast_S_S16x1 tc_0
  let t3 : IVec S16x1 32 := addi v26 t2
  let t4 : IVec S16x1 32 := select t1 t3 v26
  let t5 : IVec S16x1x1 32 := shapeCast S16x1x1 t4 shapeCasts_S16x1_S16x1x1
  let tc_1 : IVec S1 32 := constantI S1 32 511#32
  let tc_2 : IVec S_ 32 := constantI S_ 32 0#32
  let t6 : IVec S16x1x1 32 := broadcastInDim S16x1x1 ![] bcast_S_S16x1x1 tc_2
  let t7 : IVec S16x1x1 1 := cmpi .sge t5 t6
  let t8 : IVec S1x1x1 32 := broadcastInDim S1x1x1 ![2] bcast_S1_S1x1x1_2 tc_1
  let t9 : IVec S16x1x1 32 := broadcastInDim S16x1x1 ![0, 1, 2] bcast_S1x1x1_S16x1x1_0_1_2 t8
  let t10 : IVec S16x1x1 1 := cmpi .sle t5 t9
  let t11 : IVec S16x1x1 1 := andi t7 t10
  let tc_3 : IVec S_ 1 := constantI S_ 1 1#1
  let t12 : IVec S16x1 1 := Host.reduce IntOp.andi t11 tc_3 reducesTo_S16x1x1_S16x1_d2 h_S_
  let t13 : FVec F S16x1 .f32 := Host.gather gather_S16x512_S16x1x1_S16x1_n_1_0_0_1_2_11 fb t5
  let tcst : FVec F S_ .f32 := constant S_ .f32 0x7FC00000#32
  let t14 : FVec F S16x1 .f32 := broadcastInDim S16x1 ![] bcast_S_S16x1 tcst
  let v27 : FVec F S16x1 .f32 := select t12 t13 t14
  let v28 : FVec F S16 .f32 := shapeCast S16 v27 shapeCasts_S16x1_S16
  let cst_6 : FVec F S_ .f32 := constant S_ .f32 0x00000000#32
  let v29 : FVec F S16 .f32 := broadcastInDim S16 ![] bcast_S_S16 cst_6
  let v30 : IVec S16 1 := cmpf .ogt v18 v29
  let v31 : FVec F S16 .f32 := Host.log v28
  let v32 : FVec F S16 .f32 := Host.negf v31
  let v33 : FVec F S16 .f32 := select v30 v23 v32
  let v34 : IVec S16 1 := cmpi .slt a4 a3
  let v35 : FVec F S16 .f32 := uitofp .f32 v34
  let v36 : FVec F S16 .f32 := mulf v33 v35
  let cst_7 : FVec F S_ .f32 := constant S_ .f32 0x00000000#32
  let v37 : FVec F S_ .f32 := Host.reduceAdd v36 cst_7 reducesTo_S16_S_d0 h_S_
  let cst_8 : FVec F S_ .f32 := constant S_ .f32 0x00000000#32
  let v38 : FVec F S_ .f32 := Host.reduceAdd v35 cst_8 reducesTo_S16_S_d0 h_S_
  let cst_9 : FVec F S_ .f32 := constant S_ .f32 0x3F800000#32
  let v39 : FVec F S_ .f32 := maximumf v38 cst_9
  Host.divf v37 v39

end Cert.KernelIdeal

namespace Cert.ReferenceIdeal

open Idealize.ShloMosaic
open Facts₀ Facts

variable {F : FTy → Type} [FloatOps F] [Facts]

/-- The reference's lookup of p: the entry of `x` at (b, l, r[b, l]) — a negative word first moved up by the
    vocabulary size, the lookup clamped into range, and a fill value put where the moved word is out of range. -/
def takeOf (x : FVec F S16x512x32000 .f32) (r : IVec S16x512 32) : FVec F S16x512 .f32 :=
  let v10 : IVec S16x512x1 32 := broadcastInDim S16x512x1 ![0, 1] bcast_S16x512_S16x512x1_0_1 r
  let c : IVec S_ 32 := constantI S_ 32 0#32
  let v0 : IVec S16x512x1 32 := broadcastInDim S16x512x1 ![] bcast_S_S16x512x1 c
  let v1 : IVec S16x512x1 1 := cmpi .slt v10 v0
  let c_0 : IVec S_ 32 := constantI S_ 32 32000#32
  let v2 : IVec S16x512x1 32 := broadcastInDim S16x512x1 ![] bcast_S_S16x512x1 c_0
  let v3 : IVec S16x512x1 32 := addi v10 v2
  let v4 : IVec S16x512x1 32 := select v1 v3 v10
  let v5 : IVec S16x512x1x1 32 := shapeCast S16x512x1x1 v4 shapeCasts_S16x512x1_S16x512x1x1
  let c_1 : IVec S1 32 := constantI S1 32 31999#32
  let c_2 : IVec S_ 32 := constantI S_ 32 0#32
  let v6 : IVec S16x512x1x1 32 := broadcastInDim S16x512x1x1 ![] bcast_S_S16x512x1x1 c_2
  let v7 : IVec S16x512x1x1 1 := cmpi .sge v5 v6
  let v8 : IVec S1x1x1x1 32 := broadcastInDim S1x1x1x1 ![3] bcast_S1_S1x1x1x1_3 c_1
  let v9 : IVec S16x512x1x1 32 := broadcastInDim S16x512x1x1 ![0, 1, 2, 3] bcast_S1x1x1x1_S16x512x1x1_0_1_2_3 v8
  let v10' : IVec S16x512x1x1 1 := cmpi .sle v5 v9
  let v11 : IVec S16x512x1x1 1 := andi v7 v10'
  let c_3 : IVec S_ 1 := constantI S_ 1 1#1
  let v12 : IVec S16x512x1 1 := Host.reduce IntOp.andi v11 c_3 reducesTo_S16x512x1x1_S16x512x1_d3 h_S_
  let v13 : FVec F S16x512x1 .f32 := Host.gather gather_S16x512x32000_S16x512x1x1_S16x512x1_n_2_01_01_2_3_111 x v5
  let cst : FVec F S_ .f32 := constant S_ .f32 0x7FC00000#32
  let v14 : FVec F S16x512x1 .f32 := broadcastInDim S16x512x1 ![] bcast_S_S16x512x1 cst
  let v15 : FVec F S16x512x1 .f32 := select v12 v13 v14
  shapeCast S16x512 v15 shapeCasts_S16x512x1_S16x512

/-- The reference's cut of the fixed column: x[:, :, 2] as a [16, 512] array. -/
def fbColOf (x : FVec F S16x512x32000 .f32) : FVec F S16x512 .f32 :=
  shapeCast S16x512 (extractStridedSlice S16x512x1 ![0, 0, 2] x slices_S16x512x32000_S16x512x1_0_0_2) shapeCasts_S16x512x1_S16x512

end Cert.ReferenceIdeal

end
-- ==== Proof.KernelHost.lean ====
/-
  The kernel program's host side, read as values.

  Before the region the host computes, from the arguments, the counted positions (`unkOf` of forwarded_trgs), the
  logits with batch and position merged into 8192 rows, and the shifted targets as an [8192, 1] column: these are
  what the region finds in the buffers it reads. After the region the host reshapes the region's two [8192, 1]
  results back to [16, 512] and runs the shared chain `lossOf` on them. Nothing here looks inside the region or
  inside the chains: each statement only says which named function of which buffers a buffer holds.
-/
import proofs.«406111_j31421980738233_3_alg».proof.Proof.Gen.KernelIdeal.Frame
import proofs.«406111_j31421980738233_3_alg».proof.Proof.Chains
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

-- the chains' reductions and lookups are folds and searches over their operands; the equations below never look
-- inside them, so they stay folded while the two spellings of one term are compared
attribute [local irreducible] Host.reduceAdd Host.reduce Host.gather Host.reduceWindow Host.log Host.negf Host.divf concatenate in
set_option maxHeartbeats 1000000 in
/-- The host operations after the region, run from any buffer contents `W`, leave in the result buffer the
    shared chain of: the region's two results reshaped to [16, 512], the counted positions, the sequence lengths
    and the inserted counts, each as `W` holds them. -/
theorem tail_eq (W : Valuation τ sig (Elt F)) :
    StableHlo.after (List.flatten [hostOps1, hostOps1_1, hostOps1_2, hostOps1_3, hostOps1_4, hostOps1_5, hostOps1_6]) W (Proc.devRef .tc main_v40)
      = lossOf (F := F) (shapeCast S16x512 (W (Proc.devRef .tc main_v12_0)) shapeCasts_S8192x1_S16x512)
          (shapeCast S16x512 (W (Proc.devRef .tc main_v12_1)) shapeCasts_S8192x1_S16x512)
          (W (Proc.devRef .tc main_v8)) (W (Proc.devRef .tc main_arg3)) (W (Proc.devRef .tc main_arg4)) := by
  simp only [hostOps1, hostOps1_1, hostOps1_2, hostOps1_3, hostOps1_4, hostOps1_5, hostOps1_6, List.flatten_cons, List.flatten_nil,
    List.append_nil, List.cons_append, List.nil_append]
  after_results_simp
  rfl

-- the same care before the region: the running count of zeros, the shift and the merges are named, not opened
attribute [local irreducible] Host.reduceWindow concatenate extractStridedSlice in
set_option maxHeartbeats 1000000 in
/-- When the region is entered the buffer of counted positions holds `unkOf` of forwarded_trgs as launched. -/
theorem V_v8 (c : Dev nD) : V m c main_v8 = unkOf (m ((c : Thread nD τ).loc main_arg1)) := by
  dsimp only [V, V0]
  simp only [hostOps0, hostOps0_1, hostOps0_2, hostOps0_3, hostOps0_4, List.flatten_cons, List.flatten_nil, List.append_nil,
    List.cons_append, List.nil_append]
  after_results_simp
  rfl

attribute [local irreducible] Host.reduceWindow concatenate extractStridedSlice in
set_option maxHeartbeats 1000000 in
/-- The region's first operand: the logits as launched, batch and position merged into 8192 rows. -/
theorem V_v10 (c : Dev nD) :
    V m c main_v10 = shapeCast S8192x32000 (m ((c : Thread nD τ).loc main_arg0)) shapeCasts_S16x512x32000_S8192x32000 := by
  dsimp only [V, V0]
  simp only [hostOps0, hostOps0_1, hostOps0_2, hostOps0_3, hostOps0_4, List.flatten_cons, List.flatten_nil, List.append_nil,
    List.cons_append, List.nil_append]
  after_results_simp
  rfl

attribute [local irreducible] Host.reduceWindow concatenate extractStridedSlice in
set_option maxHeartbeats 1000000 in
/-- The region's second operand: the targets as launched, shifted one position along each row, as a column of 8192. -/
theorem V_v11 (c : Dev nD) :
    V m c main_v11 = shapeCast S8192x1 (rollOf (m ((c : Thread nD τ).loc main_arg2))) shapeCasts_S16x512_S8192x1 := by
  dsimp only [V, V0]
  simp only [hostOps0, hostOps0_1, hostOps0_2, hostOps0_3, hostOps0_4, List.flatten_cons, List.flatten_nil, List.append_nil,
    List.cons_append, List.nil_append]
  after_results_simp
  rfl

/-- THE RESULT after the run, as the frame run's post states it: the shared chain of the region's two result arrays
    (reshaped to [16, 512]), the counted positions as the region found them, and the two length arguments as
    launched. The lines after the region read the arrays from what the region left and every other buffer from
    what it held at the region's entry. -/
theorem result_eq (c : Dev nD) :
    Pipeline.afterTail₀ cfgs (dats m) 0 (V0 m) [hostOps1, hostOps1_1, hostOps1_2, hostOps1_3, hostOps1_4, hostOps1_5, hostOps1_6] c main_v40
      = lossOf (F := F) (shapeCast S16x512 ((dats m 0 c).arrAt 2 cfg0.N) shapeCasts_S8192x1_S16x512)
          (shapeCast S16x512 ((dats m 0 c).arrAt 3 cfg0.N) shapeCasts_S8192x1_S16x512)
          (V m c main_v8) (m ((c : Thread nD τ).loc main_arg3)) (m ((c : Thread nD τ).loc main_arg4)) := by
  have key : ∀ W : Valuation τ sig (Elt F),
      W (Proc.devRef .tc main_v12_0) = (dats m 0 c).arrAt 2 cfg0.N →
      W (Proc.devRef .tc main_v12_1) = (dats m 0 c).arrAt 3 cfg0.N →
      W (Proc.devRef .tc main_v8) = V m c main_v8 →
      W (Proc.devRef .tc main_arg3) = m ((c : Thread nD τ).loc main_arg3) →
      W (Proc.devRef .tc main_arg4) = m ((c : Thread nD τ).loc main_arg4) →
      StableHlo.after (List.flatten [hostOps1, hostOps1_1, hostOps1_2, hostOps1_3, hostOps1_4, hostOps1_5, hostOps1_6]) W (Proc.devRef .tc main_v40)
        = lossOf (F := F) (shapeCast S16x512 ((dats m 0 c).arrAt 2 cfg0.N) shapeCasts_S8192x1_S16x512)
            (shapeCast S16x512 ((dats m 0 c).arrAt 3 cfg0.N) shapeCasts_S8192x1_S16x512)
            (V m c main_v8) (m ((c : Thread nD τ).loc main_arg3)) (m ((c : Thread nD τ).loc main_arg4)) := by
    intro W h2 h3 h8 h3' h4'
    rw [tail_eq, h2, h3, h8, h3', h4']
  unfold Pipeline.afterTail₀
  exact key _ (Pipeline.withArrays_arr spec0 launch0.win.arr_inj c _ _ 2) (Pipeline.withArrays_arr spec0 launch0.win.arr_inj c _ _ 3)
    (Pipeline.withArrays_of_ne spec0 c _ _ main_v8 (by exact (by decide : ∀ w, Pipeline.arrRef spec0 w ≠ main_v8)))
    ((Pipeline.withArrays_of_ne spec0 c _ _ main_arg3 (by exact (by decide : ∀ w, Pipeline.arrRef spec0 w ≠ main_arg3))).trans (V_main_arg3 m c))
    ((Pipeline.withArrays_of_ne spec0 c _ _ main_arg4 (by exact (by decide : ∀ w, Pipeline.arrRef spec0 w ≠ main_arg4))).trans (V_main_arg4 m c))

end Cert.KernelIdeal.HostSide

end
-- ==== Proof.Spec.lean ====
/-
  The mathematics of the loss, stated once over literal shapes, with no program in sight.

  For each position (b, l) the loss needs the probability the model gave to the PREVIOUS target of the row,
  logits[b, l, targets[b, l-1]] (the position before l = 0 is l = 511: the row is read cyclically), and the
  probability of one fixed column, logits[b, l, 2].

  One side picks the column by comparing every column number with the target word and adding up the selected
  entries; the other reads the entry directly. The two meet in `sum_pick`: a sum over v of
  "f v if v is the word, else 0" is f at the word when the word, read unsigned, is a column, and 0 otherwise
  (at most one column number equals the word, and adding zeros changes nothing on the extended reals).
-/
import Idealize.ShloMosaic.PureOps.Ideal
import Idealize.ShloMosaic.Lib.ValueIdx

noncomputable section

namespace Cert.Spec

open Idealize.ShloMosaic Idealize.ShloMosaic.ValueIdx

/-- logits: [batch 16, position 512, vocabulary 32000]. -/
abbrev SLogits : Shape := ⟨3, ![16, 512, 32000]⟩
/-- one entry per (batch, position). -/
abbrev SPos : Shape := ⟨2, ![16, 512]⟩
/-- logits with batch and position merged: row r = 512 b + l. -/
abbrev SRows : Shape := ⟨2, ![8192, 32000]⟩
/-- one entry per merged row, kept as a column. -/
abbrev SCol : Shape := ⟨2, ![8192, 1]⟩

/-- The position before (b, l) in its row, cyclically: (b, l - 1), and (b, 511) for l = 0. -/
def prevPos (i : SPos.Idx) : SPos.Idx := ix2 (i 0) ⟨((i 1).val + 511) % 512, Nat.mod_lt _ (by decide)⟩

/-- logits[b, l, w] for a word w that, read unsigned, is a column number; 0 for any other word. -/
def colAt (x : SLogits.Idx → EReal) (i : SPos.Idx) (w : BitVec 32) : EReal :=
  if h : w.toNat < 32000 then x (ix3 (i 0) (i 1) ⟨w.toNat, h⟩) else 0

/-- p[b, l] = logits[b, l, targets[b, l - 1]]. -/
def pOf (x : SLogits.Idx → EReal) (tg : SPos.Idx → BitVec 32) : SPos.Idx → EReal :=
  fun i => colAt x i (tg (prevPos i))

/-- The fixed column: logits[b, l, 2]. -/
def fbOf (x : SLogits.Idx → EReal) : SPos.Idx → EReal :=
  fun i => x (ix3 (i 0) (i 1) ⟨2, by decide⟩)

/-- The same pick on the merged rows: X[r, w] for the word w = I[r, 0] when it is a column number, else 0. -/
def rowPick (X : SRows.Idx → EReal) (I : SCol.Idx → BitVec 32) (i : SCol.Idx) : EReal :=
  if h : (I (ix2 (i 0) ⟨0, by decide⟩)).toNat < 32000 then X (ix2 (i 0) ⟨(I (ix2 (i 0) ⟨0, by decide⟩)).toNat, h⟩) else 0

/-- A column number below 32000 is its own 32-bit word, so two of them are equal words only if equal numbers. -/
theorem ofNat_eq_iff (v : Fin 32000) (w : BitVec 32) : BitVec.ofNat 32 v.val = w ↔ v.val = w.toNat := by
  constructor
  · intro h
    have := congrArg BitVec.toNat h
    rw [BitVec.toNat_ofNat, Nat.mod_eq_of_lt (by have := v.isLt; omega)] at this
    exact this
  · intro h
    apply BitVec.eq_of_toNat_eq
    rw [BitVec.toNat_ofNat, Nat.mod_eq_of_lt (by have := v.isLt; omega)]
    exact h

/-- THE LAW THAT JOINS THE TWO SIDES. Adding, over all column numbers v, "f v if v is the word w, else 0"
    gives f at w when w is a column number and 0 when it is not. -/
theorem sum_pick (f : Fin 32000 → EReal) (w : BitVec 32) :
    (∑ v : Fin 32000, if BitVec.ofNat 32 v.val = w then f v else 0)
      = if h : w.toNat < 32000 then f ⟨w.toNat, h⟩ else 0 := by
  by_cases h : w.toNat < 32000
  · rw [dif_pos h]
    have e : ∀ v : Fin 32000, (BitVec.ofNat 32 v.val = w) ↔ (v = ⟨w.toNat, h⟩) := fun v => by
      rw [ofNat_eq_iff]; exact ⟨fun hv => Fin.ext hv, fun hv => congrArg Fin.val hv⟩
    simp only [e]
    rw [Finset.sum_ite_eq' Finset.univ (⟨w.toNat, h⟩ : Fin 32000) f, if_pos (Finset.mem_univ _)]
  · rw [dif_neg h]
    apply Finset.sum_eq_zero
    intro v _
    rw [if_neg]
    intro hv
    have := (ofNat_eq_iff v w).mp hv
    have hl := v.isLt
    omega

end Cert.Spec

end
-- ==== Proof.KernelBlocks.lean ====
/-
  What the region leaves in its two result arrays, as whole-array functions of the two arrays it reads.

  The region walks the 8192 merged rows 64 at a time. At each step it holds a [64, 32000] block of the logits and
  the [64, 1] block of target words of the same rows; for each row it compares every column number with the row's
  word, keeps the logits entry where they are equal and 0 elsewhere, and adds the row up: by the sum law of the
  specification that is the entry at the word (or 0 for a word that is no column number). It also copies column 2
  of the block. The 128 blocks tile the result arrays, so each array is one function of the row.
-/
import proofs.«406111_j31421980738233_3_alg».proof.Proof.Gen.KernelIdeal.Frame
import proofs.«406111_j31421980738233_3_alg».proof.Proof.Spec
import Idealize.ShloMosaic.Lib.Pipeline.Value
import Idealize.ShloMosaic.PureOps.Ideal.Laws

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The zero offset of a whole-block access. -/
theorem hz : (![0, 0] : Fin 2 → Nat) = fun _ => 0 := funext fun a => by fin_cases a <;> rfl

/-- Selecting on the bit "a and b are the same word" is the `if` on their equality. -/
theorem select_eq_word {α : Type} (a b : BitVec 32) (x y : α) :
    Scalar.select (IntOp.cmpi .eq a b) x y = if a = b then x else y := by
  unfold Scalar.select IntOp.cmpi
  by_cases h : a = b
  · subst h; simp
  · have hb : (a == b) = false := beq_eq_false_iff_ne.mpr h
    simp [h, hb]

/-- Row p of the lane sum runs over the entries (p, v) of the row. -/
theorem lane_index (p : Fin 64) (v : Fin 32000) :
    (Facts₀.reduces_S64x32000_S64).lift (a := (1 : Fin S64x32000.rank)) (ix1 p) v = ix2 p v := by
  funext a
  apply Fin.ext
  match a with
  | ⟨0, _⟩ => rfl
  | ⟨1, _⟩ => rfl

/-- THE FIRST PAYLOAD AT A ROW: comparing every column number with the row's word, keeping the block's entry
    where they agree and 0 elsewhere, and adding the row up. -/
theorem pick_at (x1 : Vec Ideal S64x1 .i32) (x0 : Vec Ideal S64x32000 .f32) (p : Fin 64) :
    k0_pay1 x1 x0 (ix2 p 0) = ∑ v : Fin 32000, if BitVec.ofNat 32 v.val = x1 (ix2 p 0) then x0 (ix2 p v) else 0 := by
  unfold k0_pay1
  simp only [shapeCast_self]
  rw [shapeCast_apply _ Facts₀.shapeCasts_S64_S64x1 (ix2 p 0) (ix1 p)
    (by rw [Shape.rowMajor_val_one, Shape.rowMajor_val_two]; show p.val = p.val * 1 + 0; omega)]
  refine (Ideal.multiReduction_add_single (a := (1 : Fin S64x32000.rank)) _ 0x00000000#32
    Facts₀.reduces_S64x32000_S64 _ _ (ix1 p)).trans ?_
  show (∑ v : Fin 32000, _) = _
  refine Finset.sum_congr rfl fun v _ => ?_
  rw [lane_index, select_apply, broadcast_apply]
  show Scalar.select (IntOp.cmpi .eq (iota Kind.tc S64x32000 32 [1] Facts₀.iota_S64x32000_d1_w32 (ix2 p v))
      (broadcastTo S64x32000 x1 Facts₀.broadcasts_S64x1_S64x32000 (ix2 p v))) _ _ = _
  rw [iota_single_apply, broadcastTo_apply x1 Facts₀.broadcasts_S64x1_S64x32000 (ix2 p v) (ix2 p 0)
    (fun a => by match a with
      | ⟨0, _⟩ => rfl
      | ⟨1, _⟩ => rfl)]
  rw [select_eq_word]
  show (if BitVec.ofNat 32 v.val = x1 (ix2 p 0) then x0 (ix2 p v) else Ideal.ofBits .f32 0x00000000#32) = _
  rw [Ideal.ofBits_zero_f32]

/-- Each row of the payload is the specification's pick at any index i of the column whose row holds the block's
    word and logits row: the sum law turns the compare-select-add into the entry at the word. -/
theorem pick_row (x1 : Vec Ideal S64x1 .i32) (x0 : Vec Ideal S64x32000 .f32)
    (X : Cert.Spec.SRows.Idx → EReal) (I : Cert.Spec.SCol.Idx → BitVec 32) (p : Fin 64) (i : Cert.Spec.SCol.Idx)
    (h1 : x1 (ix2 p 0) = I (ix2 (i 0) ⟨0, by decide⟩))
    (h0 : ∀ v : Fin 32000, x0 (ix2 p v) = X (ix2 (i 0) v)) :
    k0_pay1 x1 x0 (ix2 p 0) = Cert.Spec.rowPick X I i := by
  rw [pick_at, Cert.Spec.sum_pick]
  unfold Cert.Spec.rowPick
  rw [← h1]
  by_cases h : (x1 (ix2 p 0)).toNat < 32000
  · rw [dif_pos h, dif_pos h]; exact h0 _
  · rw [dif_neg h, dif_neg h]

/-- The second payload at a row: column 2 of the block's row. -/
theorem col2_at (x0 : Vec Ideal S64x32000 .f32) (p : Fin 64) :
    k0_pay2 (View.ld x0 r0_2) (ix2 p 0) = x0 (ix2 p ⟨2, by decide⟩) := by
  unfold k0_pay2
  rw [shapeCast_self]
  show x0 (r0_2.idx (ix2 p 0)) = _
  refine congrArg x0 (funext fun a => Fin.ext ?_)
  match a with
  | ⟨0, _⟩ => show 0 + 1 * p.val = p.val; omega
  | ⟨1, _⟩ => show 2 + 1 * 0 = 2; rfl

/-- The index maps, decided over the 128 grid points: every window's block number along the rows is the point's
    own number, and along the columns it is 0. -/
theorem idx_facts : ∀ t : Fin cfg0.N,
    win0_0.index t (0 : Fin 2) = win0_2.index t (0 : Fin 2) + 0
    ∧ win0_0.index t (1 : Fin 2) = 0
    ∧ win0_1.index t (0 : Fin 2) = win0_2.index t (0 : Fin 2) + 0
    ∧ win0_1.index t (1 : Fin 2) = 0
    ∧ win0_2.index t (1 : Fin 2) = 0
    ∧ win0_3.index t (0 : Fin 2) = win0_2.index t (0 : Fin 2) + 0
    ∧ win0_3.index t (1 : Fin 2) = 0
    ∧ win0_2.index t (0 : Fin 2) = t.val :=
  (by decide +kernel : ∀ t : Fin grid0.N, _)

/-- The first result as one function of the row: the logits row's entry at the row's word. -/
def picked (c : Dev nD) : S8192x1.Idx → EReal :=
  fun i => Cert.Spec.rowPick (V m c main_v10) (V m c main_v11) i

/-- The second result as one function of the row: column 2 of the logits row. -/
def fixedCol (c : Dev nD) : S8192x1.Idx → EReal :=
  fun i => V m c main_v10 (ix2 (i 0) ⟨2, by decide⟩)

/-- Entry (p, v) of the logits block at point t is entry (r, v) of the logits rows, r = 64 t + p. -/
theorem logits_block (c : Dev nD) (t : Fin cfg0.N) (p : Fin 64) (v : Fin 32000) (r : Fin 8192)
    (hr : r.val = t.val * 64 + p.val) :
    (iblk m c 0 t : Vec Ideal S64x32000 .f32) (ix2 p v) = V m c main_v10 (ix2 r v) := by
  obtain ⟨e0, e1, e2, e3, e4, e5, e6, e7⟩ := idx_facts t
  show V m c main_v10 (((cfg0.win 0).blk t).view.emb (ix2 p v)) = _
  refine congrArg (V m c main_v10) (funext fun a => Fin.ext ?_)
  match a with
  | ⟨0, _⟩ => show win0_0.index t (0 : Fin 2) * 64 + 1 * p.val = r.val; omega
  | ⟨1, _⟩ => show win0_0.index t (1 : Fin 2) * 32000 + 1 * v.val = v.val; omega

/-- Entry p of the word block at point t is the word of row r = 64 t + p. -/
theorem words_block (c : Dev nD) (t : Fin cfg0.N) (p : Fin 64) (r : Fin 8192)
    (hr : r.val = t.val * 64 + p.val) :
    (iblk m c 1 t : Vec Ideal S64x1 .i32) (ix2 p 0) = V m c main_v11 (ix2 r ⟨0, by decide⟩) := by
  obtain ⟨e0, e1, e2, e3, e4, e5, e6, e7⟩ := idx_facts t
  show V m c main_v11 (((cfg0.win 1).blk t).view.emb (ix2 p 0)) = _
  refine congrArg (V m c main_v11) (funext fun a => Fin.ext ?_)
  match a with
  | ⟨0, _⟩ => show win0_1.index t (0 : Fin 2) * 64 + 1 * p.val = r.val; omega
  | ⟨1, _⟩ => show win0_1.index t (1 : Fin 2) * 1 + 1 * 0 = 0; omega

/-- WHAT POINT t WRITES BACK to the first result: block t of the row pick of the logits rows by the word column.
    Entry p of the block is the payload's row p, which is the pick at row 64 t + p of the whole arrays, because
    the word block and the logits block at t are rows 64 t … 64 t + 63 of theirs. -/
theorem flushed2_eq (c : Dev nD) (t : Fin cfg0.N) :
    (dats m 0 c).flushed 2 t = ((cfg0.win 2).blk t).view.read (Elt Ideal) (picked m c) := by
  show (cfg0.win 2).cut (grid0.coords t) ((dats m 0 c).after 2 t) = _
  rw [after0_2]
  unfold out0_2
  rw [View.canon_unit_zero hz]
  simp only [View.ld_unit_zero (S := S64x1) hz, View.ld_unit_zero (S := S64x32000) hz]
  obtain ⟨e0, e1, e2, e3, e4, e5, e6, e7⟩ := idx_facts t
  have key : ∀ p : Fin 64, k0_pay1 (iblk m c 1 t) (iblk m c 0 t) (ix2 p 0)
      = picked m c (((cfg0.win 2).blk t).view.emb (ix2 p 0)) := fun p => by
    show _ = Cert.Spec.rowPick (V m c main_v10) (V m c main_v11) (((cfg0.win 2).blk t).view.emb (ix2 p 0))
    exact pick_row (iblk m c 1 t) (iblk m c 0 t) (V m c main_v10) (V m c main_v11) p _
      (words_block m c t p _ (by show win0_2.index t (0 : Fin 2) * 64 + 1 * p.val = _; omega))
      (fun v => logits_block m c t p v _ (by show win0_2.index t (0 : Fin 2) * 64 + 1 * p.val = _; omega))
  generalize k0_pay1 (iblk m c 1 t) (iblk m c 0 t) = P at key ⊢
  generalize picked m c = G at key ⊢
  funext j
  obtain ⟨p, q, rfl⟩ : ∃ (p : Fin 64) (q : Fin 1), j = ix2 p q := ⟨j 0, j 1, eq_ix2 j⟩
  obtain rfl : q = 0 := Subsingleton.elim _ _
  exact key p

/-- WHAT POINT t WRITES BACK to the second result: block t of column 2 of the logits rows. -/
theorem flushed3_eq (c : Dev nD) (t : Fin cfg0.N) :
    (dats m 0 c).flushed 3 t = ((cfg0.win 3).blk t).view.read (Elt Ideal) (fixedCol m c) := by
  show (cfg0.win 3).cut (grid0.coords t) ((dats m 0 c).after 3 t) = _
  rw [after0_3]
  unfold out0_3
  rw [View.canon_unit_zero hz]
  obtain ⟨e0, e1, e2, e3, e4, e5, e6, e7⟩ := idx_facts t
  have key : ∀ p : Fin 64, k0_pay2 (View.ld (iblk m c 0 t) r0_2) (ix2 p 0)
      = fixedCol m c (((cfg0.win 3).blk t).view.emb (ix2 p 0)) := fun p => by
    show _ = V m c main_v10 (ix2 ((((cfg0.win 3).blk t).view.emb (ix2 p 0)) 0) ⟨2, by decide⟩)
    exact (col2_at (iblk m c 0 t) p).trans
      (logits_block m c t p ⟨2, by decide⟩ _ (by show win0_3.index t (0 : Fin 2) * 64 + 1 * p.val = _; omega))
  generalize k0_pay2 (View.ld (iblk m c 0 t) r0_2) = P at key ⊢
  generalize fixedCol m c = G at key ⊢
  funext j
  obtain ⟨p, q, rfl⟩ : ∃ (p : Fin 64) (q : Fin 1), j = ix2 p q := ⟨j 0, j 1, eq_ix2 j⟩
  obtain rfl : q = 0 := Subsingleton.elim _ _
  exact key p

/-- A row index is in point t's block of the first result iff each coordinate is in the block's range. -/
theorem mem_rows2 (t : Fin cfg0.N) (i : S8192x1.Idx) :
    i ∈ ((cfg0.win 2).blk t).view.set ↔ ∀ a : Fin 2, win0_2.index t a * S64x1.size a ≤ (i a).val
      ∧ (i a).val < win0_2.index t a * S64x1.size a + S64x1.size a := by
  show i ∈ ((View.whole main_v12_0).slice (win0_2.rect t)).set ↔ _
  rw [View.set_slice_whole, Rect.mem_set_unit]
  exact Iff.rfl

/-- The same for the second result. -/
theorem mem_rows3 (t : Fin cfg0.N) (i : S8192x1.Idx) :
    i ∈ ((cfg0.win 3).blk t).view.set ↔ ∀ a : Fin 2, win0_3.index t a * S64x1.size a ≤ (i a).val
      ∧ (i a).val < win0_3.index t a * S64x1.size a + S64x1.size a := by
  show i ∈ ((View.whole main_v12_1).slice (win0_3.rect t)).set ↔ _
  rw [View.set_slice_whole, Rect.mem_set_unit]
  exact Iff.rfl

/-- The point that covers row r: r / 64, one of the 128. -/
def pointOf (i : S8192x1.Idx) : Fin cfg0.N :=
  ⟨(i 0).val / 64, by
    have h : (i 0).val < 8192 := (i 0).isLt
    show (i 0).val / 64 < grid0.N
    rw [N_0]; omega⟩

theorem pointOf_val (i : S8192x1.Idx) : (pointOf i).val = (i 0).val / 64 := rfl

/-- THE 128 BLOCKS COVER THE FIRST RESULT: row r lies in the block of point r / 64. -/
theorem cover2 (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  obtain ⟨e0, e1, e2, e3, e4, e5, e6, e7⟩ := idx_facts (pointOf i)
  have hv := pointOf_val i
  refine ⟨pointOf i, flush0_2 (pointOf i), ?_⟩
  rw [mem_rows2]
  intro a
  match a with
  | ⟨0, _⟩ =>
    show win0_2.index (pointOf i) (0 : Fin 2) * 64 ≤ (i 0).val
      ∧ (i 0).val < win0_2.index (pointOf i) (0 : Fin 2) * 64 + 64
    omega
  | ⟨1, _⟩ =>
    show win0_2.index (pointOf i) (1 : Fin 2) * 1 ≤ (i 1).val
      ∧ (i 1).val < win0_2.index (pointOf i) (1 : Fin 2) * 1 + 1
    omega

/-- And the second result, by the same point. -/
theorem cover3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  obtain ⟨e0, e1, e2, e3, e4, e5, e6, e7⟩ := idx_facts (pointOf i)
  have hv := pointOf_val i
  refine ⟨pointOf i, flush0_3 (pointOf i), ?_⟩
  rw [mem_rows3]
  intro a
  match a with
  | ⟨0, _⟩ =>
    show win0_3.index (pointOf i) (0 : Fin 2) * 64 ≤ (i 0).val
      ∧ (i 0).val < win0_3.index (pointOf i) (0 : Fin 2) * 64 + 64
    omega
  | ⟨1, _⟩ =>
    show win0_3.index (pointOf i) (1 : Fin 2) * 1 ≤ (i 1).val
      ∧ (i 1).val < win0_3.index (pointOf i) (1 : Fin 2) * 1 + 1
    omega

/-- The first result array after the run: row r holds the logits row's entry at the row's target word. -/
theorem arr2_eq (c : Dev nD) :
    (dats m 0 c).arrAt 2 cfg0.N = fun i => Cert.Spec.rowPick (V m c main_v10) (V m c main_v11) i :=
  (dats m 0 c).arrAt_eq_of_cover 2 (picked m c) (fun t _ => flushed2_eq m c t) cover2

/-- The second result array after the run: row r holds column 2 of the logits row. -/
theorem arr3_eq (c : Dev nD) :
    (dats m 0 c).arrAt 3 cfg0.N = fun i => V m c main_v10 (ix2 (i 0) ⟨2, by decide⟩) :=
  (dats m 0 c).arrAt_eq_of_cover 3 (fixedCol m c) (fun t _ => flushed3_eq m c t) cover3

end Cert.KernelIdeal.Blocks

end
-- ==== Proof.Layout.lean ====
/-
  The kernel program's layout steps read at an index, and the precondition read as a range of the target words.

  The kernel program merges batch and position into one axis of 8192 rows (row 512 b + l) before the region and
  splits it again after; the targets are shifted one position along each row first. Read at (b, l) these steps
  cancel: the merged-row pick of the specification at row 512 b + l is the pick at (b, l) of the word
  targets[b, l - 1] (cyclically). The precondition's second conjunct says every target word w has 0 ≤ w < 32000 as
  a signed word, so read unsigned it is below 32000.
-/
import proofs.«406111_j31421980738233_3_alg».proof.Proof.Chains
import proofs.«406111_j31421980738233_3_alg».proof.Proof.Spec
import proofs.«406111_j31421980738233_3_alg».proof.Pre_finite_inputs
import Idealize.ShloMosaic.Lib.Pipeline.Value
import Idealize.ShloMosaic.Lib.ReduceAll
import Idealize.ShloMosaic.Lib.StableHlo.Predicate

set_option maxRecDepth 16384

noncomputable section

namespace Cert.KernelIdeal.Layout

open Cert.KernelIdeal Cert.KernelIdeal.Facts₀ Cert.KernelIdeal.Facts
open Idealize.ShloMosaic Idealize.ShloMosaic.ValueIdx

variable [Cert.KernelIdeal.Facts]

/-- The shifted targets at (b, l) are the targets at the position before. -/
theorem rollOf_apply (a2 : IVec S16x512 32) (i : S16x512.Idx) : rollOf a2 i = a2 (Cert.Spec.prevPos i) := by
  obtain ⟨b, l, rfl⟩ : ∃ b l, i = ix2 b l := ⟨i 0, i 1, eq_ix2 i⟩
  have hb : b.val < 16 := b.isLt
  have hl : l.val < 512 := l.isLt
  unfold rollOf
  by_cases h0 : l.val = 0
  · -- position 0 falls in the one-column piece, which holds column 511 of the row
    refine (concatenate_pair_apply_left (t := S16x512) (s₁ := S16x1) (s₂ := S16x511) 1 _ _ concatenates_S16x1_S16x511_S16x512_d1 (ix2 b l) rfl
      (ix2 b (⟨0, by decide⟩ : Fin 1)) ?_).trans ?_
    · intro c
      match c with
      | ⟨0, _⟩ => rfl
      | ⟨1, _⟩ => show (0 : Nat) = l.val; omega
    · refine extractStridedSlice_apply ![0, 511] a2 slices_S16x512_S16x1_0_511 _ (Cert.Spec.prevPos (ix2 b l)) ?_
      intro c
      match c with
      | ⟨0, _⟩ => show b.val = 0 + b.val; omega
      | ⟨1, _⟩ => show (l.val + 511) % 512 = 511 + 0; omega
  · -- a later position l falls in the second piece at l - 1, which holds column l - 1 of the row
    have hl1 : l.val - 1 < 511 := by omega
    refine (concatenate_pair_apply_right (t := S16x512) (s₁ := S16x1) (s₂ := S16x511) 1 _ _ concatenates_S16x1_S16x511_S16x512_d1 (ix2 b l) rfl rfl
      (ix2 b (⟨l.val - 1, hl1⟩ : Fin 511)) ?_ ?_).trans ?_
    · intro c hc
      match c, hc with
      | ⟨0, _⟩, _ => rfl
      | ⟨1, _⟩, hc => exact absurd rfl hc
    · show (l.val - 1) + 1 = l.val
      omega
    · refine extractStridedSlice_apply ![0, 0] a2 slices_S16x512_S16x511_0_0 _ (Cert.Spec.prevPos (ix2 b l)) ?_
      intro c
      match c with
      | ⟨0, _⟩ => show b.val = 0 + b.val; omega
      | ⟨1, _⟩ => show (l.val + 511) % 512 = 0 + (l.val - 1); omega

/-- The pick of a merged row whose word is `w`: entry (r, w) when `w` is a column number, else 0. -/
theorem rowPick_at (X : Cert.Spec.SRows.Idx → EReal) (I : Cert.Spec.SCol.Idx → BitVec 32) (r : Fin 8192) (c : Fin 1)
    (w : BitVec 32) (hw : I (ix2 r (⟨0, by decide⟩ : Fin 1)) = w) :
    Cert.Spec.rowPick X I (ix2 r c) = if h : w.toNat < 32000 then X (ix2 r (⟨w.toNat, h⟩ : Fin 32000)) else 0 := by
  subst hw
  rfl

/-- Merge, pick per merged row, split: the pick per (batch, position). -/
theorem p_eq (x : FVec Ideal S16x512x32000 .f32) (tg : IVec S16x512 32) :
    shapeCast S16x512 (fun i : S8192x1.Idx => Cert.Spec.rowPick (shapeCast S8192x32000 x shapeCasts_S16x512x32000_S8192x32000)
        (shapeCast S8192x1 (rollOf tg) shapeCasts_S16x512_S8192x1) i) shapeCasts_S8192x1_S16x512
      = Cert.Spec.pOf x tg := by
  funext i
  obtain ⟨b, l, rfl⟩ : ∃ b l, i = ix2 b l := ⟨i 0, i 1, eq_ix2 i⟩
  have hb : b.val < 16 := b.isLt
  have hl : l.val < 512 := l.isLt
  have hr : 512 * b.val + l.val < 8192 := by omega
  -- the split reads merged row 512 b + l, column 0
  refine (shapeCast_apply _ shapeCasts_S8192x1_S16x512 (ix2 b l)
    (ix2 (⟨512 * b.val + l.val, hr⟩ : Fin 8192) (⟨0, by decide⟩ : Fin 1)) ?_).trans ?_
  · rw [Shape.rowMajor_val_two, Shape.rowMajor_val_two]
    show (512 * b.val + l.val) * 1 + 0 = b.val * 512 + l.val
    omega
  -- the word of that merged row is the shifted target at (b, l), the target at the position before
  have hw : (shapeCast S8192x1 (rollOf tg) shapeCasts_S16x512_S8192x1)
      (ix2 (⟨512 * b.val + l.val, hr⟩ : Fin 8192) (⟨0, by decide⟩ : Fin 1)) = tg (Cert.Spec.prevPos (ix2 b l)) := by
    refine (shapeCast_apply (rollOf tg) shapeCasts_S16x512_S8192x1 _ (ix2 b l) ?_).trans (rollOf_apply tg (ix2 b l))
    rw [Shape.rowMajor_val_two, Shape.rowMajor_val_two]
    show b.val * 512 + l.val = (512 * b.val + l.val) * 1 + 0
    omega
  refine (rowPick_at _ _ _ _ _ hw).trans ?_
  show _ = Cert.Spec.colAt x (ix2 b l) (tg (Cert.Spec.prevPos (ix2 b l)))
  generalize tg (Cert.Spec.prevPos (ix2 b l)) = w
  unfold Cert.Spec.colAt
  by_cases h : w.toNat < 32000
  · rw [dif_pos h, dif_pos h]
    -- merged row 512 b + l, column w, is entry (b, l, w)
    refine shapeCast_apply x shapeCasts_S16x512x32000_S8192x32000 _ (ix3 b l (⟨w.toNat, h⟩ : Fin 32000)) ?_
    rw [Shape.rowMajor_val_three, Shape.rowMajor_val_two]
    show (b.val * 512 + l.val) * 32000 + w.toNat = (512 * b.val + l.val) * 32000 + w.toNat
    omega
  · rw [dif_neg h, dif_neg h]

/-- Merge, take column 2 per merged row, split: column 2 per (batch, position). -/
theorem fb_eq (x : FVec Ideal S16x512x32000 .f32) :
    shapeCast S16x512 (fun i : S8192x1.Idx => (shapeCast S8192x32000 x shapeCasts_S16x512x32000_S8192x32000) (ix2 (i 0) ⟨2, by decide⟩))
        shapeCasts_S8192x1_S16x512
      = Cert.Spec.fbOf x := by
  funext i
  obtain ⟨b, l, rfl⟩ : ∃ b l, i = ix2 b l := ⟨i 0, i 1, eq_ix2 i⟩
  have hb : b.val < 16 := b.isLt
  have hl : l.val < 512 := l.isLt
  have hr : 512 * b.val + l.val < 8192 := by omega
  -- the split reads merged row 512 b + l, column 0
  refine (shapeCast_apply _ shapeCasts_S8192x1_S16x512 (ix2 b l)
    (ix2 (⟨512 * b.val + l.val, hr⟩ : Fin 8192) (⟨0, by decide⟩ : Fin 1)) ?_).trans ?_
  · rw [Shape.rowMajor_val_two, Shape.rowMajor_val_two]
    show (512 * b.val + l.val) * 1 + 0 = b.val * 512 + l.val
    omega
  -- merged row 512 b + l, column 2, is entry (b, l, 2)
  refine shapeCast_apply x shapeCasts_S16x512x32000_S8192x32000 _ (ix3 b l (⟨2, by decide⟩ : Fin 32000)) ?_
  rw [Shape.rowMajor_val_three, Shape.rowMajor_val_two]
  show (b.val * 512 + l.val) * 32000 + 2 = (512 * b.val + l.val) * 32000 + 2
  omega

end Cert.KernelIdeal.Layout

namespace Cert.Pre_finite_inputs.Range

open Idealize.ShloMosaic Idealize.ShloMosaic.ValueIdx

variable [Cert.Pre_finite_inputs.Facts]

/-- The scalar shape has one index. -/
instance : Subsingleton Cert.Pre_finite_inputs.S_.Idx := ⟨fun a b => funext fun d => d.elim0⟩

/-- A word `w` with 0 ≤ w < 32000 as a signed word is below 32000 read unsigned: a word whose unsigned reading is
    2³¹ or more reads negative as a signed word, so a non-negative signed reading is the unsigned one. -/
theorem toNat_lt_of_signed (w : BitVec 32) (h0 : IntOp.cmpi .sge w 0#32 = 1#1) (h1 : IntOp.cmpi .slt w 32000#32 = 1#1) :
    w.toNat < 32000 := by
  have g0 : (0#32).toInt ≤ w.toInt := IntOp.cmpi_sge.1 h0
  have g1 : w.toInt < (32000#32).toInt := IntOp.cmpi_slt.1 h1
  have e0 : (0#32).toInt = 0 := by decide
  have e1 : (32000#32).toInt = 32000 := by decide
  rw [e0] at g0
  rw [e1] at g1
  have ht := BitVec.toInt_eq_toNat_cond w
  split at ht <;> omega

/-- An elementwise "and" of two one-bit arrays that is 1 at an index has both operands 1 there. -/
theorem andi_apply_eq_one {s : Shape} (x y : IVec s 1) (j : s.Idx) (h : andi x y j = 1#1) : x j = 1#1 ∧ y j = 1#1 :=
  IntOp.andi_eq_one.1 h

/-- A signed compare of an array with a constant word spread over all positions, read at an index. -/
theorem cmpi_splat_apply {s : Shape} (p : CmpIPredicate) (x : IVec s 32) (c : BitVec 32)
    (hb : (⟨0, ![]⟩ : Shape).BroadcastsInDim s ![]) (j : s.Idx) :
    cmpi p x (broadcastInDim s ![] hb (constantI ⟨0, ![]⟩ 32 c)) j = IntOp.cmpi p (x j) c := rfl

/-- THE PRECONDITION READ: every target word, read unsigned, is below 32000. -/
theorem range_of_pre (a0 : FVec Ideal Cert.Pre_finite_inputs.S16x512x32000 .f32) (a1 a2 : IVec Cert.Pre_finite_inputs.S16x512 32)
    (a3 a4 : IVec Cert.Pre_finite_inputs.S16 32)
    (h : Cert.Pre_finite_inputs.fn (F := Ideal) a0 a1 a2 a3 a4 = fun _ => 1#1) :
    ∀ i, (a2 i).toNat < 32000 := by
  intro i
  have e := congrFun h ix0
  unfold Cert.Pre_finite_inputs.fn at e
  dsimp only at e
  -- the result is the "and" of the two conjuncts; the second is the "and" over all positions of the two compares
  obtain ⟨-, e9⟩ := andi_apply_eq_one _ _ _ e
  have e8 := Host.reduce_andi_all _ _ _ _ ix0 e9 i
  obtain ⟨e5, e7⟩ := andi_apply_eq_one _ _ _ e8
  -- each compare is against a constant word spread over all positions
  rw [cmpi_splat_apply] at e5 e7
  exact toNat_lt_of_signed (a2 i) e5 e7

end Cert.Pre_finite_inputs.Range

end
-- ==== Proof.LossSpec.lean ====
/-
  The loss as ONE function of the five argument arrays: the shared chain applied to
  p[b, l] = logits[b, l, targets[b, l - 1]] (0 where the word is no column number), to logits[b, l, 2], to the
  counted positions of forwarded_trgs and to the two length arguments. Both programs' runs are stated with this
  same term, which is what makes their results equal.
-/
import proofs.«406111_j31421980738233_3_alg».proof.Proof.Chains
import proofs.«406111_j31421980738233_3_alg».proof.Proof.Spec

noncomputable section

namespace Cert.KernelIdeal

open Idealize.ShloMosaic

variable [Facts]

/-- The loss of the arguments. -/
def lossSpec (a0 : FVec Ideal S16x512x32000 .f32) (a1 a2 : IVec S16x512 32) (a3 a4 : IVec S16 32) : FVec Ideal S_ .f32 :=
  lossOf (F := Ideal) (Cert.Spec.pOf a0 a2) (Cert.Spec.fbOf a0) (unkOf a1) a3 a4

end Cert.KernelIdeal

end
-- ==== Proof.KernelFinal.lean ====
/-
  The idealized kernel program's run, with its result named.

  The frame run leaves the result buffer at the host tail applied to what the region left (KernelHost), the region
  leaves the two picks per merged row (KernelBlocks), the host prefix made the merged rows and the shifted targets
  out of the arguments (KernelHost), and merging, picking and splitting is the pick per (batch, position)
  (Layout). Put together: the result is the shared chain `lossOf` of p[b, l] = logits[b, l, targets[b, l - 1]]
  (0 where the word is no column number), of logits[b, l, 2], of the counted positions and of the two length
  arguments — for EVERY launch memory: the kernel side needs no precondition.
-/
import proofs.«406111_j31421980738233_3_alg».proof.Proof.KernelHost
import proofs.«406111_j31421980738233_3_alg».proof.Proof.KernelBlocks
import proofs.«406111_j31421980738233_3_alg».proof.Proof.Layout
import proofs.«406111_j31421980738233_3_alg».proof.Proof.LossSpec

set_option maxRecDepth 16384

noncomputable section

namespace Cert.KernelIdeal.Final

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first result array, split back into (batch, position), is p of the logits and targets as launched. -/
theorem p_arr (c : Dev nD) :
    shapeCast S16x512 ((dats m 0 c).arrAt 2 cfg0.N) shapeCasts_S8192x1_S16x512
      = Cert.Spec.pOf (m ((c : Thread nD τ).loc main_arg0)) (m ((c : Thread nD τ).loc main_arg2)) := by
  rw [Blocks.arr2_eq, HostSide.V_v10, HostSide.V_v11]
  exact Layout.p_eq _ _

/-- The second, split back, is column 2 of the logits as launched. -/
theorem fb_arr (c : Dev nD) :
    shapeCast S16x512 ((dats m 0 c).arrAt 3 cfg0.N) shapeCasts_S8192x1_S16x512
      = Cert.Spec.fbOf (m ((c : Thread nD τ).loc main_arg0)) := by
  rw [Blocks.arr3_eq, HostSide.V_v10]
  exact Layout.fb_eq _

/-- The result the frame run's post names is the loss of the arguments as launched. -/
theorem value_eq (c : Dev nD) :
    Pipeline.afterTail₀ cfgs (dats m) 0 (V0 m) [hostOps1, hostOps1_1, hostOps1_2, hostOps1_3, hostOps1_4, hostOps1_5, hostOps1_6] c main_v40
      = lossSpec (m ((c : Thread nD τ).loc main_arg0)) (m ((c : Thread nD τ).loc main_arg1)) (m ((c : Thread nD τ).loc main_arg2))
          (m ((c : Thread nD τ).loc main_arg3)) (m ((c : Thread nD τ).loc main_arg4)) := by
  rw [HostSide.result_eq, p_arr, fb_arr, HostSide.V_v8]
  rfl

/-- Every weakly fair execution of the idealized kernel program terminates with the result at the loss of the
    arguments and the arguments unchanged. -/
theorem run : θ_run defs (onTc (τ := τ) (main (F := Ideal))) ⟨m, fun _ => 0, ρ⟩ fun r => ∀ c : Dev nD,
      r.2.mem ((c.tc : Thread nD τ).loc main_v40) = lossSpec (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v40 (Pipeline.mem_restRefs_of main_v40 (by decide) (by decide))).trans (value_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Final

end
-- ==== Proof.RefRun.lean ====
/-
  The reference program's run, read back.

  The reference is a straight line of 101 host operations: the functions it calls (the running count, the shift,
  the two lookups, the selects) are bodies executed at their call sites over that call's own buffers, so written
  out in order they are one list. Every weakly fair execution runs the list to its end, and the final contents of
  every buffer are the list's fold over the contents at launch.
-/
import proofs.«406111_j31421980738233_3_alg».proof.Proof.Gen.ReferenceIdeal
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The program's operations in order, each call's body written out at the call over that call's buffers. -/
abbrev ops : List (HloOp τ sig (Elt F)) :=
  [ nullary main_c (constantI S_ 32 0#32),
    unary main_c main_v0 (broadcastInDim S16x512 ![] bcast_S_S16x512 : (⟨S_, .i32⟩ : BufTy).Contents (Elt F) → (⟨S16x512, .i32⟩ : BufTy).Contents (Elt F)),
    binary main_arg1 main_v0 main_v1 (cmpi .eq : (⟨S16x512, .i32⟩ : BufTy).Contents (Elt F) → (⟨S16x512, .i32⟩ : BufTy).Contents (Elt F) → (⟨S16x512, .i1⟩ : BufTy).Contents (Elt F)),
    unary main_v1 main_v2 ((extui 32 · natLt_1_32) : (⟨S16x512, .i1⟩ : BufTy).Contents (Elt F) → (⟨S16x512, .i32⟩ : BufTy).Contents (Elt F)),
    -- the running count of zeros along each row (two nested calls, three operations)
    TRef.nullary main_call0.call0.c (constantI S_ 32 0#32),
    TRef.unary main_call0.call0.c main_call0.call0.v0 (broadcastInDim S_ ![] bcast_S_S_),
    TRef.binary (.of main_v2 : TRef sig ⟨S16x512, .i32⟩) main_call0.call0.v0 main_call0.call0.v1 (fun x v => Host.reduceWindow IntOp.addi ![1, 512] ![1, 1] ![0, 511] ![0, 0] x v reduceWindows_S16x512_S16x512_w1s1p0_0_w512s1p511_0 h_S_),
    nullary main_c_0 (constantI S_ 32 0#32),
    unary main_c_0 main_v4 (broadcastInDim S16x512 ![] bcast_S_S16x512 : (⟨S_, .i32⟩ : BufTy).Contents (Elt F) → (⟨S16x512, .i32⟩ : BufTy).Contents (Elt F)),
    binary main_v3 main_v4 main_v5 (cmpi .eq : (⟨S16x512, .i32⟩ : BufTy).Contents (Elt F) → (⟨S16x512, .i32⟩ : BufTy).Contents (Elt F) → (⟨S16x512, .i1⟩ : BufTy).Contents (Elt F)),
    nullary main_c_1 (constantI S_ 32 1#32),
    unary main_c_1 main_v6 (broadcastInDim S16x512 ![] bcast_S_S16x512 : (⟨S_, .i32⟩ : BufTy).Contents (Elt F) → (⟨S16x512, .i32⟩ : BufTy).Contents (Elt F)),
    binary main_arg1 main_v6 main_v7 (cmpi .eq : (⟨S16x512, .i32⟩ : BufTy).Contents (Elt F) → (⟨S16x512, .i32⟩ : BufTy).Contents (Elt F) → (⟨S16x512, .i1⟩ : BufTy).Contents (Elt F)),
    binary main_v5 main_v7 main_v8 (andi : (⟨S16x512, .i1⟩ : BufTy).Contents (Elt F) → (⟨S16x512, .i1⟩ : BufTy).Contents (Elt F) → (⟨S16x512, .i1⟩ : BufTy).Contents (Elt F)),
    -- the targets shifted one position along each row
    TRef.unary (.of main_arg2 : TRef sig ⟨S16x512, .i32⟩) main_call1.v0 (extractStridedSlice S16x1 ![0, 511] · slices_S16x512_S16x1_0_511),
    TRef.unary (.of main_arg2 : TRef sig ⟨S16x512, .i32⟩) main_call1.v1 (extractStridedSlice S16x511 ![0, 0] · slices_S16x512_S16x511_0_0),
    TRef.binary main_call1.v0 main_call1.v1 main_call1.v2 (fun a b => concatenate S16x512 1 [⟨S16x1, a⟩, ⟨S16x511, b⟩] concatenates_S16x1_S16x511_S16x512_d1),
    unary main_v9 main_v10 (broadcastInDim S16x512x1 ![0, 1] bcast_S16x512_S16x512x1_0_1 : (⟨S16x512, .i32⟩ : BufTy).Contents (Elt F) → (⟨S16x512x1, .i32⟩ : BufTy).Contents (Elt F)),
    -- the lookup of p along the vocabulary axis
    TRef.nullary main_call2.c (constantI S_ 32 0#32),
    TRef.unary main_call2.c main_call2.v0 (broadcastInDim S16x512x1 ![] bcast_S_S16x512x1),
    TRef.binary (.of main_v10 : TRef sig ⟨S16x512x1, .i32⟩) main_call2.v0 main_call2.v1 (cmpi .slt),
    TRef.nullary main_call2.c_0 (constantI S_ 32 32000#32),
    TRef.unary main_call2.c_0 main_call2.v2 (broadcastInDim S16x512x1 ![] bcast_S_S16x512x1),
    TRef.binary (.of main_v10 : TRef sig ⟨S16x512x1, .i32⟩) main_call2.v2 main_call2.v3 addi,
    TRef.ternary main_call2.v1 main_call2.v3 (.of main_v10 : TRef sig ⟨S16x512x1, .i32⟩) main_call2.v4 select,
    TRef.reshape main_call2.v4 main_call2.v5 rfl shapeCasts_S16x512x1_S16x512x1x1,
    TRef.nullary main_call2.c_1 (constantI S1 32 31999#32),
    TRef.nullary main_call2.c_2 (constantI S_ 32 0#32),
    TRef.unary main_call2.c_2 main_call2.v6 (broadcastInDim S16x512x1x1 ![] bcast_S_S16x512x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S16x512x1x1 ![0, 1, 2, 3] bcast_S1x1x1x1_S16x512x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16x512x1x1_S16x512x1_d3 h_S_),
    TRef.binary (.of main_arg0 : TRef sig ⟨S16x512x32000, .f32⟩) main_call2.v5 main_call2.v13 (fun x i => Host.gather gather_S16x512x32000_S16x512x1x1_S16x512x1_n_2_01_01_2_3_111 x i),
    TRef.nullary main_call2.cst (constant S_ .f32 0x7FC00000#32),
    TRef.unary main_call2.cst main_call2.v14 (broadcastInDim S16x512x1 ![] bcast_S_S16x512x1),
    TRef.ternary main_call2.v12 main_call2.v13 main_call2.v14 main_call2.v15 select,
    reshape main_v11 main_v12 rfl shapeCasts_S16x512x1_S16x512,
    unary main_v12 main_v13 (Host.log : (⟨S16x512, .f32⟩ : BufTy).Contents (Elt F) → (⟨S16x512, .f32⟩ : BufTy).Contents (Elt F)),
    unary main_v13 main_v14 (Host.negf : (⟨S16x512, .f32⟩ : BufTy).Contents (Elt F) → (⟨S16x512, .f32⟩ : BufTy).Contents (Elt F)),
    unary main_v8 main_v15 (uitofp .f32 : (⟨S16x512, .i1⟩ : BufTy).Contents (Elt F) → (⟨S16x512, .f32⟩ : BufTy).Contents (Elt F)),
    nullary main_cst (constant S_ .f32 0x00000000#32),
    binary main_v15 main_cst main_v16 ((fun x v => Host.reduceAdd x v reducesTo_S16x512_S16_d1 h_S_) : (⟨S16x512, .f32⟩ : BufTy).Contents (Elt F) → (⟨S_, .f32⟩ : BufTy).Contents (Elt F) → (⟨S16, .f32⟩ : BufTy).Contents (Elt F)),
    nullary main_cst_2 (constant S_ .f32 0x00000000#32),
    -- nll kept at the counted positions, zero elsewhere
    TRef.unary (.of main_cst_2 : TRef sig ⟨S_, .f32⟩) main_call3.v0 id,
    TRef.unary main_call3.v0 main_call3.v1 (broadcastInDim S16x512 ![] bcast_S_S16x512),
    TRef.ternary (.of main_v8 : TRef sig ⟨S16x512, .i1⟩) (.of main_v14 : TRef sig ⟨S16x512, .f32⟩) main_call3.v1 main_call3.v2 select,
    nullary main_cst_3 (constant S_ .f32 0x00000000#32),
    binary main_v17 main_cst_3 main_v18 ((fun x v => Host.reduceAdd x v reducesTo_S16x512_S16_d1 h_S_) : (⟨S16x512, .f32⟩ : BufTy).Contents (Elt F) → (⟨S_, .f32⟩ : BufTy).Contents (Elt F) → (⟨S16, .f32⟩ : BufTy).Contents (Elt F)),
    nullary main_cst_4 (constant S_ .f32 0x3F800000#32),
    unary main_cst_4 main_v19 (broadcastInDim S16 ![] bcast_S_S16 : (⟨S_, .f32⟩ : BufTy).Contents (Elt F) → (⟨S16, .f32⟩ : BufTy).Contents (Elt F)),
    binary main_v16 main_v19 main_v20 (maximumf : (⟨S16, .f32⟩ : BufTy).Contents (Elt F) → (⟨S16, .f32⟩ : BufTy).Contents (Elt F) → (⟨S16, .f32⟩ : BufTy).Contents (Elt F)),
    binary main_v18 main_v20 main_v21 (Host.divf : (⟨S16, .f32⟩ : BufTy).Contents (Elt F) → (⟨S16, .f32⟩ : BufTy).Contents (Elt F) → (⟨S16, .f32⟩ : BufTy).Contents (Elt F)),
    unary main_arg0 main_v22 ((extractStridedSlice S16x512x1 ![0, 0, 2] · slices_S16x512x32000_S16x512x1_0_0_2) : (⟨S16x512x32000, .f32⟩ : BufTy).Contents (Elt F) → (⟨S16x512x1, .f32⟩ : BufTy).Contents (Elt F)),
    reshape main_v22 main_v23 rfl shapeCasts_S16x512x1_S16x512,
    nullary main_c_5 (constantI S_ 32 2#32),
    unary main_c_5 main_v24 (broadcastInDim S16 ![] bcast_S_S16 : (⟨S_, .i32⟩ : BufTy).Contents (Elt F) → (⟨S16, .i32⟩ : BufTy).Contents (Elt F)),
    binary main_arg3 main_v24 main_v25 (addi : (⟨S16, .i32⟩ : BufTy).Contents (Elt F) → (⟨S16, .i32⟩ : BufTy).Contents (Elt F) → (⟨S16, .i32⟩ : BufTy).Contents (Elt F)),
    unary main_v25 main_v26 (broadcastInDim S16x1 ![0] bcast_S16_S16x1_0 : (⟨S16, .i32⟩ : BufTy).Contents (Elt F) → (⟨S16x1, .i32⟩ : BufTy).Contents (Elt F)),
    -- the fallback's lookup along the position axis
    TRef.nullary main_call4.c (constantI S_ 32 0#32),
    TRef.unary main_call4.c main_call4.v0 (broadcastInDim S16x1 ![] bcast_S_S16x1),
    TRef.binary (.of main_v26 : TRef sig ⟨S16x1, .i32⟩) main_call4.v0 main_call4.v1 (cmpi .slt),
    TRef.nullary main_call4.c_0 (constantI S_ 32 512#32),
    TRef.unary main_call4.c_0 main_call4.v2 (broadcastInDim S16x1 ![] bcast_S_S16x1),
    TRef.binary (.of main_v26 : TRef sig ⟨S16x1, .i32⟩) main_call4.v2 main_call4.v3 addi,
    TRef.ternary main_call4.v1 main_call4.v3 (.of main_v26 : TRef sig ⟨S16x1, .i32⟩) main_call4.v4 select,
    TRef.reshape main_call4.v4 main_call4.v5 rfl shapeCasts_S16x1_S16x1x1,
    TRef.nullary main_call4.c_1 (constantI S1 32 511#32),
    TRef.nullary main_call4.c_2 (constantI S_ 32 0#32),
    TRef.unary main_call4.c_2 main_call4.v6 (broadcastInDim S16x1x1 ![] bcast_S_S16x1x1),
    TRef.binary main_call4.v5 main_call4.v6 main_call4.v7 (cmpi .sge),
    TRef.unary main_call4.c_1 main_call4.v8 (broadcastInDim S1x1x1 ![2] bcast_S1_S1x1x1_2),
    TRef.unary main_call4.v8 main_call4.v9 (broadcastInDim S16x1x1 ![0, 1, 2] bcast_S1x1x1_S16x1x1_0_1_2),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16x1x1_S16x1_d2 h_S_),
    TRef.binary (.of main_v23 : TRef sig ⟨S16x512, .f32⟩) main_call4.v5 main_call4.v13 (fun x i => Host.gather gather_S16x512_S16x1x1_S16x1_n_1_0_0_1_2_11 x i),
    TRef.nullary main_call4.cst (constant S_ .f32 0x7FC00000#32),
    TRef.unary main_call4.cst main_call4.v14 (broadcastInDim S16x1 ![] bcast_S_S16x1),
    TRef.ternary main_call4.v12 main_call4.v13 main_call4.v14 main_call4.v15 select,
    reshape main_v27 main_v28 rfl shapeCasts_S16x1_S16,
    nullary main_cst_6 (constant S_ .f32 0x00000000#32),
    unary main_cst_6 main_v29 (broadcastInDim S16 ![] bcast_S_S16 : (⟨S_, .f32⟩ : BufTy).Contents (Elt F) → (⟨S16, .f32⟩ : BufTy).Contents (Elt F)),
    binary main_v16 main_v29 main_v30 (cmpf .ogt : (⟨S16, .f32⟩ : BufTy).Contents (Elt F) → (⟨S16, .f32⟩ : BufTy).Contents (Elt F) → (⟨S16, .i1⟩ : BufTy).Contents (Elt F)),
    unary main_v28 main_v31 (Host.log : (⟨S16, .f32⟩ : BufTy).Contents (Elt F) → (⟨S16, .f32⟩ : BufTy).Contents (Elt F)),
    unary main_v31 main_v32 (Host.negf : (⟨S16, .f32⟩ : BufTy).Contents (Elt F) → (⟨S16, .f32⟩ : BufTy).Contents (Elt F)),
    TRef.ternary (.of main_v30 : TRef sig ⟨S16, .i1⟩) (.of main_v21 : TRef sig ⟨S16, .f32⟩) (.of main_v32 : TRef sig ⟨S16, .f32⟩) main_call5.v0 select,
    binary main_arg4 main_arg3 main_v34 (cmpi .slt : (⟨S16, .i32⟩ : BufTy).Contents (Elt F) → (⟨S16, .i32⟩ : BufTy).Contents (Elt F) → (⟨S16, .i1⟩ : BufTy).Contents (Elt F)),
    unary main_v34 main_v35 (uitofp .f32 : (⟨S16, .i1⟩ : BufTy).Contents (Elt F) → (⟨S16, .f32⟩ : BufTy).Contents (Elt F)),
    binary main_v33 main_v35 main_v36 (mulf : (⟨S16, .f32⟩ : BufTy).Contents (Elt F) → (⟨S16, .f32⟩ : BufTy).Contents (Elt F) → (⟨S16, .f32⟩ : BufTy).Contents (Elt F)),
    nullary main_cst_7 (constant S_ .f32 0x00000000#32),
    binary main_v36 main_cst_7 main_v37 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_8 (constant S_ .f32 0x00000000#32),
    binary main_v35 main_cst_8 main_v38 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_9 (constant S_ .f32 0x3F800000#32),
    binary main_v38 main_cst_9 main_v39 (maximumf : (⟨S_, .f32⟩ : BufTy).Contents (Elt F) → (⟨S_, .f32⟩ : BufTy).Contents (Elt F) → (⟨S_, .f32⟩ : BufTy).Contents (Elt F)),
    binary main_v37 main_v39 main_v40 (Host.divf : (⟨S_, .f32⟩ : BufTy).Contents (Elt F) → (⟨S_, .f32⟩ : BufTy).Contents (Elt F) → (⟨S_, .f32⟩ : BufTy).Contents (Elt F)) ]

-- a hundred and one binds re-associated: the rewrite under the chain recurses once per statement
set_option maxRecDepth 4096 in
set_option maxHeartbeats 1000000 in
/-- The program is that straight line: the callees' definitions unfolded at their calls and the records at their
    fields, both sides are one chain of steps once sequencing is re-associated. -/
theorem main_eq (c : Dev nD) : main (F := F) c = seq ops := by
  simp only [main, fn_cumsum.body, fn_cumsum_0.body, fn_roll_static.body, fn_take_along_axis.body, fn_where.body,
    fn_take_along_axis_1.body, fn_where_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., binary_bufs_sub .., unary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., reshape_bufs_sub .., unary_bufs_sub ..,
    unary_bufs_sub .., unary_bufs_sub .., nullary_bufs_sub .., binary_bufs_sub .., nullary_bufs_sub .., unary_bufs_sub ..,
    unary_bufs_sub .., ternary_bufs_sub .., nullary_bufs_sub .., binary_bufs_sub .., nullary_bufs_sub .., unary_bufs_sub ..,
    binary_bufs_sub .., binary_bufs_sub .., unary_bufs_sub .., reshape_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub .., nullary_bufs_sub .., unary_bufs_sub .., binary_bufs_sub .., unary_bufs_sub .., unary_bufs_sub ..,
    ternary_bufs_sub .., binary_bufs_sub .., unary_bufs_sub .., binary_bufs_sub .., nullary_bufs_sub .., binary_bufs_sub ..,
    nullary_bufs_sub .., binary_bufs_sub .., nullary_bufs_sub .., binary_bufs_sub .., binary_bufs_sub ..⟩

/-- On every device, for any float values, from any memory with zero counters: every weakly fair execution of the
    program terminates, and every final state has each buffer at the operations' fold over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RefValue.lean ====
/-
  The reference program's result and arguments after its run, as named functions of the contents at launch.

  Folding the 101 operations over any contents `V` leaves in the result buffer the shared chain `lossOf` applied
  to: the reference's own lookup `takeOf` of the logits at the shifted targets, its cut `fbColOf` of column 2,
  the counted positions `unkOf` of forwarded_trgs, the sequence lengths and the inserted counts. The chains are
  the very operations of the list in the list's order, so each equation is the fold unrolled and nothing more; the
  shift, the counted positions and the final chain are spelt on the kernel's side of the text, which differs from
  the reference's only in the names of the shapes and of the shape facts. No operation writes an argument.
-/
import proofs.«406111_j31421980738233_3_alg».proof.Proof.RefRun
import proofs.«406111_j31421980738233_3_alg».proof.Proof.Chains
import proofs.«406111_j31421980738233_3_alg».proof.Proof.Gen.KernelIdeal
import proofs.«406111_j31421980738233_3_alg».proof.Proof.Gen.ReferenceIdeal

set_option maxRecDepth 16384

noncomputable section

namespace Cert.ReferenceIdeal.Value

open Cert.ReferenceIdeal Cert.ReferenceIdeal.Run
open Idealize.ShloMosaic Idealize.ShloMosaic.TcCoe Idealize.SL.Sem Idealize.ShloMosaic.StableHlo

variable {F : FTy → Type} [FloatOps F]

-- the reductions, lookups and layout steps are folds and searches over their operands; the equations below never
-- look inside them, so they stay folded while the two spellings of one term are compared
attribute [local irreducible] Host.reduceAdd Host.reduce Host.gather Host.reduceWindow Host.log Host.negf Host.divf concatenate extractStridedSlice in
set_option maxHeartbeats 4000000 in
/-- The result buffer after the operations, from any contents `V`. -/
theorem result_eq (V : Valuation τ sig (Elt F)) :
    after ops V (main_v40 : DevRef τ sig)
      = Cert.KernelIdeal.lossOf (F := F) (takeOf (V (main_arg0 : DevRef τ sig)) (Cert.KernelIdeal.rollOf (V (main_arg2 : DevRef τ sig))))
          (fbColOf (V (main_arg0 : DevRef τ sig))) (Cert.KernelIdeal.unkOf (V (main_arg1 : DevRef τ sig)))
          (V (main_arg3 : DevRef τ sig)) (V (main_arg4 : DevRef τ sig)) := by
  after_results_simp
  rfl

set_option maxHeartbeats 1000000 in
theorem arg0_eq (V : Valuation τ sig (Elt F)) : after ops V (main_arg0 : DevRef τ sig) = V (main_arg0 : DevRef τ sig) := by
  after_results_simp
set_option maxHeartbeats 1000000 in
theorem arg1_eq (V : Valuation τ sig (Elt F)) : after ops V (main_arg1 : DevRef τ sig) = V (main_arg1 : DevRef τ sig) := by
  after_results_simp
set_option maxHeartbeats 1000000 in
theorem arg2_eq (V : Valuation τ sig (Elt F)) : after ops V (main_arg2 : DevRef τ sig) = V (main_arg2 : DevRef τ sig) := by
  after_results_simp
set_option maxHeartbeats 1000000 in
theorem arg3_eq (V : Valuation τ sig (Elt F)) : after ops V (main_arg3 : DevRef τ sig) = V (main_arg3 : DevRef τ sig) := by
  after_results_simp
set_option maxHeartbeats 1000000 in
theorem arg4_eq (V : Valuation τ sig (Elt F)) : after ops V (main_arg4 : DevRef τ sig) = V (main_arg4 : DevRef τ sig) := by
  after_results_simp

end Cert.ReferenceIdeal.Value

end
-- ==== Proof.RefTake.lean ====
/-
  The reference's two lookups, read at an index.

  `takeOf x r` moves a negative word up by the vocabulary size, looks the entry up with the index clamped into
  range, and puts a fill value where the moved word is out of range. For a word that already is a column number
  (read unsigned, below 32000: it is then non-negative as a signed word, is not moved, passes the range test and is
  not clamped) all of that is the identity, and the lookup is x[b, l, word]. The cut of the fixed column is
  x[b, l, 2].
-/
import proofs.«406111_j31421980738233_3_alg».proof.Proof.Chains
import proofs.«406111_j31421980738233_3_alg».proof.Proof.Spec
import Idealize.ShloMosaic.Lib.Pipeline.Value
import Idealize.ShloMosaic.Lib.ReduceAll
import Idealize.ShloMosaic.Lib.StableHlo.Predicate

set_option maxRecDepth 16384

noncomputable section

namespace Cert.ReferenceIdeal.Take

open Cert.ReferenceIdeal
open Idealize.ShloMosaic Idealize.ShloMosaic.ValueIdx

variable [Cert.ReferenceIdeal.Facts]

section AtAnIndex

open Cert.ReferenceIdeal.Facts₀ Cert.ReferenceIdeal.Facts
open Idealize.ShloMosaic.StableHlo.Predicate

/-! ## Words: a column number is a small non-negative signed word -/

/-- A column number is not negative as a signed word. -/
private theorem slt_zero (w : BitVec 32) (hw : w.toNat < 32000) : IntOp.cmpi .slt w 0#32 = 0#1 := by
  apply eq_zero_of_ne_one
  intro h
  have h' := (slt_iff_toNat (a := w) (b := 0#32) (by omega) (by decide)).mp h
  have h0 : (0#32 : BitVec 32).toNat = 0 := by decide
  omega

/-- A column number is at least 0 as a signed word. -/
private theorem sge_zero (w : BitVec 32) (hw : w.toNat < 32000) : IntOp.cmpi .sge w 0#32 = 1#1 := by
  refine (sge_iff_toNat (a := w) (b := 0#32) (by omega) (by decide)).mpr ?_
  have h0 : (0#32 : BitVec 32).toNat = 0 := by decide
  omega

/-- A column number is at most the last column as a signed word. -/
private theorem sle_last (w : BitVec 32) (hw : w.toNat < 32000) : IntOp.cmpi .sle w 31999#32 = 1#1 := by
  refine (sle_iff_toNat (a := w) (b := 31999#32) (by omega) (by decide)).mpr ?_
  have h0 : (31999#32 : BitVec 32).toNat = 31999 := by decide
  omega

/-- Read signed, a column number is itself. -/
private theorem toInt_toNat (w : BitVec 32) (hw : w.toNat < 32000) : w.toInt.toNat = w.toNat := by
  rw [toInt_eq_toNat_of_lt (a := w) (by omega)]
  exact Int.toNat_natCast _

/-! ## The layout steps at an index -/

/-- The words as a [16, 512, 1] array: entry (b, l, 0) is the word at (b, l). -/
private theorem bcast_r_apply (r : IVec S16x512 32) (b : Fin 16) (l : Fin 512) (q : Fin 1) :
    broadcastInDim S16x512x1 ![0, 1] bcast_S16x512_S16x512x1_0_1 r (ix3 b l q) = r (ix2 b l) := by
  refine broadcastInDim_apply _ _ r _ _ fun a => ?_
  match a with
  | ⟨0, _⟩ => rfl
  | ⟨1, _⟩ => rfl

/-- A trailing unit axis added: entry (b, l, p, q) is entry (b, l, p). -/
private theorem cast4_apply {α : Type} (v : S16x512x1.Idx → α) (b : Fin 16) (l : Fin 512) (p q : Fin 1) :
    shapeCast S16x512x1x1 v shapeCasts_S16x512x1_S16x512x1x1 (ix4 b l p q) = v (ix3 b l p) := by
  refine shapeCast_apply v _ _ _ ?_
  rw [Shape.rowMajor_val_three, Shape.rowMajor_val_four]
  show (b.val * 512 + l.val) * 1 + p.val = ((b.val * 512 + l.val) * 1 + p.val) * 1 + q.val
  have := q.isLt
  omega

/-- The trailing unit axis dropped: entry (b, l) is entry (b, l, 0). -/
private theorem cast2_apply {α : Type} (v : S16x512x1.Idx → α) (b : Fin 16) (l : Fin 512) :
    shapeCast S16x512 v shapeCasts_S16x512x1_S16x512 (ix2 b l) = v (ix3 b l ⟨0, Nat.one_pos⟩) := by
  refine shapeCast_apply v _ _ _ ?_
  rw [Shape.rowMajor_val_three, Shape.rowMajor_val_two]
  show (b.val * 512 + l.val) * 1 + 0 = b.val * 512 + l.val
  omega

/-! ## A conjunction of ones -/

/-- A reduction by `and` from 1 over an array that is 1 everywhere is 1. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize (((List.finRange s.numel).map s.rowMajor.symm).filter fun i => h.drop i = j) = L
  have e : IntOp.andi (1#1 : BitVec 1) 1#1 = 1#1 := by decide
  induction L with
  | nil => rfl
  | cons a L ih => rw [List.foldl_cons, hx a, e]; exact ih

end AtAnIndex

section Lookup

open Cert.ReferenceIdeal.Facts₀ Cert.ReferenceIdeal.Facts

/-! ## The lookup at an index -/

/-- The lookup at (b, l, 0): axes 0 and 1 are batching axes, so the operand's coordinates there are b and l; axis 2 is
    the collapsed axis the start index names, so the coordinate there is the start index at (b, l, 0, 0), read signed
    and clamped into [0, 31999]. -/
private theorem gather_apply {α : Type} (x : S16x512x32000.Idx → α) (idx : IVec S16x512x1x1 32) (b : Fin 16) (l : Fin 512)
    (q : Fin 1) :
    Host.gather gather_S16x512x32000_S16x512x1x1_S16x512x1_n_2_01_01_2_3_111 x idx (ix3 b l q)
      = x (ix3 b l ⟨min (idx (ix4 b l q ⟨0, Nat.one_pos⟩)).toInt.toNat 31999, by omega⟩) := by
  unfold Host.gather
  refine congrArg x (funext fun a => Fin.ext ?_)
  show GatherDims.start _ (ix3 b l q) idx a + GatherDims.batchCoord _ (ix3 b l q) a + GatherDims.offCoord _ (ix3 b l q) a = _
  match a with
  | ⟨0, h0⟩ =>
    have hb : (⟨0, h0⟩ : Fin 3) ∈ gather_S16x512x32000_S16x512x1x1_S16x512x1_n_2_01_01_2_3_111.operandBatchingDims := by
      show (0 : Fin 3) ∈ ([0, 1] : List (Fin 3)); decide
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨1, h1⟩ =>
    have hb : (⟨1, h1⟩ : Fin 3) ∈ gather_S16x512x32000_S16x512x1x1_S16x512x1_n_2_01_01_2_3_111.operandBatchingDims := by
      show (1 : Fin 3) ∈ ([0, 1] : List (Fin 3)); decide
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨2, h2⟩ =>
    have hnb : (⟨2, h2⟩ : Fin 3) ∉ gather_S16x512x32000_S16x512x1x1_S16x512x1_n_2_01_01_2_3_111.operandBatchingDims := by
      show (2 : Fin 3) ∉ ([0, 1] : List (Fin 3)); decide
    have hc : (⟨2, h2⟩ : Fin 3) ∈ gather_S16x512x32000_S16x512x1x1_S16x512x1_n_2_01_01_2_3_111.collapsedSliceDims := by
      show (2 : Fin 3) ∈ ([2] : List (Fin 3)); decide
    have hm : (⟨2, h2⟩ : Fin 3) ∈ gather_S16x512x32000_S16x512x1x1_S16x512x1_n_2_01_01_2_3_111.startIndexMap := by
      show (2 : Fin 3) ∈ ([2] : List (Fin 3)); decide
    rw [GatherDims.batchCoord_eq_zero _ _ _ hnb,
      GatherDims.offCoord_eq_zero _ _ _ (fun h => ((GatherDims.mem_sKept _ _).mp h).1 hc), Nat.add_zero]
    unfold GatherDims.start
    rw [dif_pos hm]
    have hsi : gather_S16x512x32000_S16x512x1x1_S16x512x1_n_2_01_01_2_3_111.siIdx (ix3 b l q)
        ⟨List.idxOf (⟨2, h2⟩ : Fin 3) gather_S16x512x32000_S16x512x1x1_S16x512x1_n_2_01_01_2_3_111.startIndexMap,
          List.idxOf_lt_length_iff.2 hm⟩ = ix4 b l q ⟨0, Nat.one_pos⟩ := by
      funext c; refine Fin.ext ?_
      match c with
      | ⟨0, _⟩ => rfl
      | ⟨1, _⟩ => rfl
      | ⟨2, _⟩ => rfl
      | ⟨3, _⟩ => rfl
    rw [hsi]
    rfl

/-- The start indices of the lookup: the words as a [16, 512, 1] array, a negative one moved up by 32000, with a second
    trailing unit axis. -/
private def startIdx (r : IVec S16x512 32) : IVec S16x512x1x1 32 :=
  shapeCast S16x512x1x1
    (select
      (cmpi .slt (broadcastInDim S16x512x1 ![0, 1] bcast_S16x512_S16x512x1_0_1 r)
        (broadcastInDim S16x512x1 ![] bcast_S_S16x512x1 (constantI S_ 32 0#32)))
      (addi (broadcastInDim S16x512x1 ![0, 1] bcast_S16x512_S16x512x1_0_1 r)
        (broadcastInDim S16x512x1 ![] bcast_S_S16x512x1 (constantI S_ 32 32000#32)))
      (broadcastInDim S16x512x1 ![0, 1] bcast_S16x512_S16x512x1_0_1 r))
    shapeCasts_S16x512x1_S16x512x1x1

/-- Column numbers are not moved: the start index at (b, l, 0, 0) is the word at (b, l). -/
private theorem startIdx_apply (r : IVec S16x512 32) (hr : ∀ i, (r i).toNat < 32000) (b : Fin 16) (l : Fin 512) (p q : Fin 1) :
    startIdx r (ix4 b l p q) = r (ix2 b l) := by
  unfold startIdx
  refine (cast4_apply _ b l p q).trans ?_
  refine (select_apply _ _ _ _).trans ?_
  show Scalar.select (IntOp.cmpi .slt (broadcastInDim S16x512x1 ![0, 1] bcast_S16x512_S16x512x1_0_1 r (ix3 b l p)) 0#32) _ _ = _
  rw [bcast_r_apply, slt_zero _ (hr _), select_zero]

/-- The range test of the lookup: the start index is at least 0 and at most the last column, both as signed words. -/
private def rangeTest (r : IVec S16x512 32) : IVec S16x512x1x1 1 :=
  andi (cmpi .sge (startIdx r) (broadcastInDim S16x512x1x1 ![] bcast_S_S16x512x1x1 (constantI S_ 32 0#32)))
    (cmpi .sle (startIdx r) (broadcastInDim S16x512x1x1 ![0, 1, 2, 3] bcast_S1x1x1x1_S16x512x1x1_0_1_2_3
      (broadcastInDim S1x1x1x1 ![3] bcast_S1_S1x1x1x1_3 (constantI S1 32 31999#32))))

/-- Column numbers pass the range test, at every index. -/
private theorem rangeTest_apply (r : IVec S16x512 32) (hr : ∀ i, (r i).toNat < 32000) (j : S16x512x1x1.Idx) :
    rangeTest r j = 1#1 := by
  obtain ⟨b, l, p, q, rfl⟩ : ∃ b l p q, j = ix4 b l p q := ⟨j 0, j 1, j 2, j 3, eq_ix4 j⟩
  show IntOp.andi (IntOp.cmpi .sge (startIdx r (ix4 b l p q)) 0#32) (IntOp.cmpi .sle (startIdx r (ix4 b l p q)) 31999#32) = 1#1
  rw [startIdx_apply r hr, sge_zero _ (hr _), sle_last _ (hr _)]
  decide

end Lookup

/-- The reference's lookup at in-range words is the plain entry. -/
theorem takeOf_eq (x : FVec Ideal S16x512x32000 .f32) (r : IVec S16x512 32) (hr : ∀ i, (r i).toNat < 32000) :
    takeOf (F := Ideal) x r = fun i => Cert.Spec.colAt x i (r i) := by
  funext i
  obtain ⟨b, l, rfl⟩ : ∃ b l, i = ix2 b l := ⟨i 0, i 1, eq_ix2 i⟩
  have hw : (r (ix2 b l)).toNat < 32000 := hr _
  show shapeCast S16x512 (select (Host.reduce IntOp.andi (rangeTest r) (constantI S_ 1 1#1) Facts₀.reducesTo_S16x512x1x1_S16x512x1_d3 Facts₀.h_S_)
    (Host.gather gather_S16x512x32000_S16x512x1x1_S16x512x1_n_2_01_01_2_3_111 x (startIdx r)) _) Facts₀.shapeCasts_S16x512x1_S16x512 (ix2 b l) = _
  refine (cast2_apply _ b l).trans ?_
  refine (select_apply _ _ _ _).trans ?_
  -- the range test passes at every index, so its conjunction over the unit axis is 1 and the looked-up entry is taken
  rw [reduce_andi_ones _ _ _ _ (rangeTest_apply r hr) rfl, select_one]
  refine (gather_apply x _ b l _).trans ?_
  unfold Cert.Spec.colAt
  rw [dif_pos hw]
  refine congrArg x ?_
  -- the clamp does nothing to a column number
  have hc : min (startIdx r (ix4 b l ⟨0, Nat.one_pos⟩ ⟨0, Nat.one_pos⟩)).toInt.toNat 31999 = (r (ix2 b l)).toNat := by
    rw [startIdx_apply r hr, toInt_toNat _ hw]; omega
  funext a
  match a with
  | ⟨0, _⟩ => rfl
  | ⟨1, _⟩ => rfl
  | ⟨2, _⟩ => exact Fin.ext hc

/-- The reference's cut of column 2. -/
theorem fbColOf_eq (x : FVec Ideal S16x512x32000 .f32) : fbColOf (F := Ideal) x = Cert.Spec.fbOf x := by
  funext i
  obtain ⟨b, l, rfl⟩ : ∃ b l, i = ix2 b l := ⟨i 0, i 1, eq_ix2 i⟩
  show _ = x (ix3 b l ⟨2, by decide⟩)
  unfold fbColOf
  refine (cast2_apply _ b l).trans ?_
  refine extractStridedSlice_apply _ x _ _ _ fun a => ?_
  match a with
  | ⟨0, _⟩ => show b.val = 0 + b.val; omega
  | ⟨1, _⟩ => show l.val = 0 + l.val; omega
  | ⟨2, _⟩ => rfl

end Cert.ReferenceIdeal.Take

end
-- ==== Proof.RefFinal.lean ====
/-
  The idealized reference program's result, as the loss of the arguments.

  The reference looks p up directly. Where every target word is a column number (the precondition), its lookup of
  the shifted targets is the plain entry logits[b, l, targets[b, l - 1]], and its cut of column 2 is
  logits[b, l, 2]: the very two arrays the loss of the arguments is the shared chain of.
-/
import proofs.«406111_j31421980738233_3_alg».proof.Proof.RefValue
import proofs.«406111_j31421980738233_3_alg».proof.Proof.RefTake
import proofs.«406111_j31421980738233_3_alg».proof.Proof.Layout
import proofs.«406111_j31421980738233_3_alg».proof.Proof.LossSpec

set_option maxRecDepth 16384

noncomputable section

namespace Cert.ReferenceIdeal.Final

open Cert.ReferenceIdeal Cert.ReferenceIdeal.Run
open Idealize.ShloMosaic Idealize.ShloMosaic.TcCoe Idealize.SL.Sem Idealize.ShloMosaic.StableHlo

/-- The lookup of the shifted targets, where every target word is a column number, is the specification's p. -/
theorem take_roll_eq (x : FVec Ideal S16x512x32000 .f32) (tg : IVec S16x512 32) (hr : ∀ i, (tg i).toNat < 32000) :
    takeOf (F := Ideal) x (Cert.KernelIdeal.rollOf tg) = Cert.Spec.pOf x tg := by
  rw [Take.takeOf_eq x (Cert.KernelIdeal.rollOf tg) (fun i => by rw [Cert.KernelIdeal.Layout.rollOf_apply]; exact hr _)]
  funext i
  show Cert.Spec.colAt x i (Cert.KernelIdeal.rollOf tg i) = Cert.Spec.colAt x i (tg (Cert.Spec.prevPos i))
  rw [Cert.KernelIdeal.Layout.rollOf_apply]

/-- The result buffer after the operations, from contents whose target words are column numbers. -/
theorem value_eq (V : Valuation τ sig (Elt Ideal)) (hr : ∀ i, (V (main_arg2 : DevRef τ sig) i).toNat < 32000) :
    after ops V (main_v40 : DevRef τ sig)
      = Cert.KernelIdeal.lossSpec (V (main_arg0 : DevRef τ sig)) (V (main_arg1 : DevRef τ sig)) (V (main_arg2 : DevRef τ sig))
          (V (main_arg3 : DevRef τ sig)) (V (main_arg4 : DevRef τ sig)) := by
  rw [Value.result_eq, take_roll_eq _ _ hr, Take.fbColOf_eq]
  rfl

end Cert.ReferenceIdeal.Final

end
-- ==== Proof.lean ====
/-
  Equivalence over the extended reals of a teacher-insertion loss kernel and its jnp reference.

  THE TWO PROGRAMS. For logits [16, 512, 32000], integer arrays forwarded_trgs, targets [16, 512] and
  sequence_lengths, inserted [16], both compute: p[b, l] = logits[b, l, targets[b, l - 1]] (each row read cyclically);
  nll = -log p; per row, the mean of nll over the counted positions (before the row's first 0 in forwarded_trgs and
  holding a 1), or -log logits[b, seq_len[b] + 2, 2] for a row with nothing counted; the mean over the rows with
  inserted < seq_len. They differ in how p is obtained. The kernel streams the logits once, 64 merged rows at a
  time, compares every column number with the row's target word, keeps the entry where they are equal and 0
  elsewhere, and adds the row up; it copies column 2 on the way. The reference looks the entry up.

  WHY THEY AGREE. A sum over the column numbers v of "x v if v is the word, else 0" is x at the word when the word
  is a column number, and 0 otherwise: at most one v is selected and adding zeros changes nothing on the extended
  reals, infinite entries included (Spec.sum_pick). So the kernel's p is the entry at the word for EVERY launch
  memory, with 0 for a word that is no column number. The reference's lookup wraps a negative word and fills where
  the word is out of range; on a word that IS a column number all of that is the identity. The precondition says
  every target word w has 0 ≤ w < 32000, so there the two p agree, the two copies of column 2 agree, and everything
  downstream is one chain of operations applied to equal arrays. No law of the extended reals beyond 0 + x = x is
  used, so the finiteness of the logits is never opened.

  THE MODULES. Spec (the mathematics, no program) · Chains (the shared host arithmetic, named) · LossSpec (the loss
  as one function of the arguments) · KernelHost, KernelBlocks, Layout, KernelFinal (the idealized kernel program's
  run ends at that function of its arguments) · RefRun, RefValue, RefTake, RefFinal (so does the idealized
  reference's, where the target words are column numbers) · here, the claims.
-/
import proofs.«406111_j31421980738233_3_alg».proof.Defs
import proofs.«406111_j31421980738233_3_alg».proof.Proof.Gen.Kernel
import proofs.«406111_j31421980738233_3_alg».proof.Proof.Gen.Kernel.Frame
import proofs.«406111_j31421980738233_3_alg».proof.Proof.Gen.KernelIdeal
import proofs.«406111_j31421980738233_3_alg».proof.Proof.Gen.KernelIdeal.Frame
import proofs.«406111_j31421980738233_3_alg».proof.Proof.Gen.ReferenceIdeal
import proofs.«406111_j31421980738233_3_alg».proof.Proof.Gen.Pre_finite_inputs
import proofs.«406111_j31421980738233_3_alg».proof.Proof.KernelFinal
import proofs.«406111_j31421980738233_3_alg».proof.Proof.RefFinal
import Idealize.ShloMosaic.Adequacy
import Idealize.ShloMosaic.Init

noncomputable section

namespace Cert.Proof

open Idealize.ShloMosaic Idealize.SL.Sem

/-- The word-level kernel program runs and leaves its arguments alone. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Value.arg0_eq _),
     (h c Cert.ReferenceIdeal.main_arg1).trans (Cert.ReferenceIdeal.Value.arg1_eq _),
     (h c Cert.ReferenceIdeal.main_arg2).trans (Cert.ReferenceIdeal.Value.arg2_eq _),
     (h c Cert.ReferenceIdeal.main_arg3).trans (Cert.ReferenceIdeal.Value.arg3_eq _),
     (h c Cert.ReferenceIdeal.main_arg4).trans (Cert.ReferenceIdeal.Value.arg4_eq _)⟩)
    (Cert.ReferenceIdeal.Run.run_main (F := Ideal) m ρ)

/-- The ideal pass rewrote nothing: the idealized kernel is the kernel's own text read over the extended reals. -/
theorem preserves : Cert.preserves_Kernel_KernelIdeal := trivial

/-- Both idealized programs end at the loss of the arguments: the kernel always, the reference where every target
    word is a column number, which the precondition says of the kernel's memory and the agreement carries over. -/
theorem algebraic : Cert.algebraic_KernelIdeal_ReferenceIdeal := by
  intro m ρ m' ρ' hpre hagree
  refine ⟨_, Cert.KernelIdeal.Final.run m ρ, ?_⟩
  refine (θ_run Cert.ReferenceIdeal.defs _ _).mono (fun _ h c =>
    ⟨?_,
     (h c Cert.ReferenceIdeal.main_arg0).trans (Cert.ReferenceIdeal.Value.arg0_eq _),
     (h c Cert.ReferenceIdeal.main_arg1).trans (Cert.ReferenceIdeal.Value.arg1_eq _),
     (h c Cert.ReferenceIdeal.main_arg2).trans (Cert.ReferenceIdeal.Value.arg2_eq _),
     (h c Cert.ReferenceIdeal.main_arg3).trans (Cert.ReferenceIdeal.Value.arg3_eq _),
     (h c Cert.ReferenceIdeal.main_arg4).trans (Cert.ReferenceIdeal.Value.arg4_eq _)⟩)
    (Cert.ReferenceIdeal.Run.run_main (F := Ideal) m' ρ')
  have hr : ∀ i, (m' ((c.tc : Thread Cert.ReferenceIdeal.nD Cert.ReferenceIdeal.τ).loc Cert.ReferenceIdeal.main_arg2) i).toNat < 32000 := by
    rw [(hagree c).2.2.1]
    exact Cert.Pre_finite_inputs.Range.range_of_pre _ _ _ _ _ (hpre c)
  rw [h c Cert.ReferenceIdeal.main_v40, Cert.ReferenceIdeal.Final.value_eq _ hr]
  show Cert.KernelIdeal.lossSpec (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
